-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Kernel.lean ====
abbrev S512x256 : Shape := ⟨2, ![512, 256]⟩
abbrev S1x256 : Shape := ⟨2, ![1, 256]⟩
abbrev S3x1x256 : Shape := ⟨3, ![3, 1, 256]⟩
abbrev S3 : Shape := ⟨1, ![3]⟩
abbrev S_ : Shape := ⟨0, ![]⟩
abbrev S256 : Shape := ⟨1, ![256]⟩
abbrev S1 : Shape := ⟨1, ![1]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S3x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v50 : BitVec 32 := Scalar.addi v2 c1_i32_31
  let c4_i32_32 : BitVec 32 := 4#32
  let c0_i32_33 : BitVec 32 := 0#32
  let v51 : BitVec 1 := Scalar.cmpi .eq c4_i32_32 c0_i32_33
  let c1_i32_34 : BitVec 32 := 1#32
  let v52 : BitVec 32 := Scalar.select v51 c1_i32_34 c4_i32_32
  let v53 : BitVec 32 := Scalar.remsi v50 v52
  let c0_i32_36 : BitVec 32 := 0#32
  let v55 : BitVec 1 := Scalar.cmpi .slt v53 c0_i32_36
  let c0_i32_37 : BitVec 32 := 0#32
  let v56 : BitVec 1 := Scalar.cmpi .slt v52 c0_i32_37
  let v57 : BitVec 1 := Scalar.xori v55 v56
  let c0_i32_35 : BitVec 32 := 0#32
  let v54 : BitVec 1 := Scalar.cmpi .ne v53 c0_i32_35
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v69 : BitVec 32 := Scalar.addi v2 c2_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v80 : BitVec 32 := Scalar.muli v79 c1_i32_55
  let v81 : BitVec 32 := Scalar.addi c0_i32_56 v80
  v81.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v88 : BitVec 32 := Scalar.addi v2 c3_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_69 : BitVec 32 := 1#32
  let v99 : BitVec 32 := Scalar.muli v98 c1_i32_69
  let v100 : BitVec 32 := Scalar.addi c0_i32_70 v99
  v100.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hamt_3 : (3#32 : BitVec 32).msb = false
  inb_S3_S1_0 : ∀ a, (![0] : Fin 1 → Nat) a + S1.size a ≤ S3.size a
  squeezes_S1_S_ : S1.Squeezes S_
  inb_S3x1x256_S1x1x256_0_0_0 : ∀ a, (![0, 0, 0] : Fin 3 → Nat) a + S1x1x256.size a ≤ S3x1x256.size a
  squeezes_S1x1x256_S1x256 : S1x1x256.Squeezes S1x256
  inb_S3_S1_1 : ∀ a, (![1] : Fin 1 → Nat) a + S1.size a ≤ S3.size a
  inb_S3x1x256_S1x1x256_1_0_0 : ∀ a, (![1, 0, 0] : Fin 3 → Nat) a + S1x1x256.size a ≤ S3x1x256.size a
  inb_S3_S1_2 : ∀ a, (![2] : Fin 1 → Nat) a + S1.size a ≤ S3.size a
  inb_S3x1x256_S1x1x256_2_0_0 : ∀ a, (![2, 0, 0] : Fin 3 → Nat) a + S1x1x256.size a ≤ S3x1x256.size a
  h_S1x1x256 : 0 < S1x1x256.numel
  shapeCasts_S1x1x256_S1x256 : S1x1x256.ShapeCasts S1x256
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S2048x256_S256_d0 : S2048x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)

variable [Facts₀]

class Facts : Prop extends Facts₀ where

variable [Facts]
-- ==== Proof.Mesh.lean ====
/-
  The mesh of four devices and the kernel's cells. Device `c` adds its three peers `c+1, c+2, c+3` (mod 4):
  its `k`-th signal and its `k`-th copy (`k = 0, 1, 2`) address `peer c k = c + k + 1`, and the copy that lands in
  `c`'s own slot `k` comes from `src c k = c - (k + 1)`. Per device there are seven semaphore cells: the barrier
  semaphore of the collective, three send semaphores and three receive semaphores, one per copy.
-/
import proofs.«900955_g7700000000000956_dist_mean_ax0_shard0_i_m512_n256_v7x_i4_bf16_1_alg».proof.Proof.Gen.KernelIdeal
import proofs.«900955_g7700000000000956_dist_mean_ax0_shard0_i_m512_n256_v7x_i4_bf16_1_alg».proof.Proof.Gen.KernelIdeal.Skeleton
import proofs.«900955_g7700000000000956_dist_mean_ax0_shard0_i_m512_n256_v7x_i4_bf16_1_alg».proof.Proof.Gen.KernelIdeal.Launch
import proofs.«900955_g7700000000000956_dist_mean_ax0_shard0_i_m512_n256_v7x_i4_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the rounds' copy (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device `k + 1` places after `c`. -/
def peer (c : Dev nD) (k : Fin 3) : Dev nD := ⟨(c.val + k.val + 1) % 4, Nat.mod_lt _ (by decide)⟩
/-- The device `k + 1` places before `c`: the one whose `k`-th copy lands on `c`. -/
def src (c : Dev nD) (k : Fin 3) : Dev nD := ⟨(c.val + 3 - k.val) % 4, Nat.mod_lt _ (by decide)⟩
/-- The signal that answers copy `k`: `peer c k` is reached from the other side by the offset `rev k`. -/
def rev (k : Fin 3) : Fin 3 := ⟨2 - k.val, by omega⟩

theorem src_peer (c : Dev nD) (k : Fin 3) : src (peer c k) k = c := by revert c k; decide
theorem peer_src (c : Dev nD) (k : Fin 3) : peer (src c k) k = c := by revert c k; decide
theorem peer_peer_rev (c : Dev nD) (k : Fin 3) : peer (peer c k) (rev k) = c := by revert c k; decide
theorem peer_rev_peer (c : Dev nD) (k : Fin 3) : peer (peer c (rev k)) k = c := by revert c k; decide
theorem src_eq_peer_rev (c : Dev nD) (k : Fin 3) : src c k = peer c (rev k) := by revert c k; decide
theorem rev_rev (k : Fin 3) : rev (rev k) = k := by revert k; decide
theorem peer_ne (c : Dev nD) (k : Fin 3) : peer c k ≠ c := by revert c k; decide
theorem peer_inj (c : Dev nD) (j k : Fin 3) (h : peer c j = peer c k) : j = k := by revert c j k; decide

def peerEquiv (k : Fin 3) : Dev nD ≃ Dev nD := ⟨fun c => peer c k, fun c => src c k, fun c => src_peer c k, fun c => peer_src c k⟩

/-- The kernel's `device_id` chains: the three signals and the three copies name `c + 1`, `c + 2`, `c + 3`. -/
theorem k0_dev1_eq (c : Dev nD) : k0_dev1 c = (peer c 0).val := by revert c; decide +kernel
theorem k0_dev2_eq (c : Dev nD) : k0_dev2 c = (peer c 1).val := by revert c; decide +kernel
theorem k0_dev3_eq (c : Dev nD) : k0_dev3 c = (peer c 2).val := by revert c; decide +kernel
theorem k0_dev4_eq (c : Dev nD) : k0_dev4 c = (peer c 0).val := by revert c; decide +kernel
theorem k0_dev5_eq (c : Dev nD) : k0_dev5 c = (peer c 1).val := by revert c; decide +kernel
theorem k0_dev6_eq (c : Dev nD) : k0_dev6 c = (peer c 2).val := by revert c; decide +kernel
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## The memrefs -/

/-- The staged block of `x`, the staged result, the device's own column sums, the three landing slots. -/
abbrev xM : Memref sig .tc .vmem S512x256 .f32 := Memref.whole cc0_stg0_0
abbrev oM : Memref sig .tc .vmem S1x256 .f32 := Memref.whole cc0_stg1_0
abbrev lM : Memref sig .tc .vmem S1x256 .f32 := Memref.whole cc0_scratch0
abbrev cM : Memref sig .tc .vmem S3x1x256 .f32 := Memref.whole cc0_scratch1

theorem slot_inb (k : Fin 3) : ∀ a, (![k.val, 0, 0] : Fin 3 → Nat) a + S1x1x256.size a ≤ S3x1x256.size a := by revert k; decide

/-- The rectangle of slot `k`: row `k` of the `[3, 1, 256]` landing buffer, a `[1, 1, 256]` block. -/
abbrev slotR (k : Fin 3) : Rect S3x1x256 := Rect.unit (s := S3x1x256) ![k.val, 0, 0] S1x1x256.size (slot_inb k)

/-- Slot `k` of the landing buffer, as the copies and their waits name it: the slice squeezed to `[1, 256]`. -/
abbrev slotM (k : Fin 3) : Memref sig .tc .vmem S1x256 .f32 :=
  (cM.slice (slotR k) (fun _ => rfl)).squeeze S1x256 squeezes_S1x1x256_S1x256

/-! ## The semaphores and the cells -/

abbrev barS : Sem sig := (SemArray.scalar (sig.barrier 0 rfl) : Sems sig S_).sem

theorem sem_inb (k : Fin 3) : ∀ a, (![k.val] : Fin 1 → Nat) a + S1.size a ≤ S3.size a := by revert k; decide

abbrev sendS (k : Fin 3) : DmaSem sig := ((cc0_scratch2.slice (Rect.unit (s := S3) ![k.val] S1.size (sem_inb k))).squeeze S_ squeezes_S1_S_).sem
abbrev recvS (k : Fin 3) : DmaSem sig := ((cc0_scratch3.slice (Rect.unit (s := S3) ![k.val] S1.size (sem_inb k))).squeeze S_ squeezes_S1_S_).sem

theorem sendS_val (k : Fin 3) : (sendS k).val = 2 + k.val := by revert k; decide
theorem recvS_val (k : Fin 3) : (recvS k).val = 5 + k.val := by revert k; decide

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's OWN (scoped) semaphores, as the launch indexes them: the three send, the three receive; -/
abbrev osem : Fin 6 → SemLoc sig := fun | 0 => .dma (sendS 0) | 1 => .dma (sendS 1) | 2 => .dma (sendS 2) | 3 => .dma (recvS 0) | 4 => .dma (recvS 1) | 5 => .dma (recvS 2)
/-- all seven, as this proof indexes them: the barrier, the sends, the receives. -/
abbrev csem : Fin 7 → SemLoc sig := fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
abbrev sendIx (k : Fin 3) : Fin 7 := ⟨1 + k.val, by omega⟩
abbrev recvIx (k : Fin 3) : Fin 7 := ⟨4 + k.val, by omega⟩
theorem kcell_send (c : Dev nD) (k : Fin 3) : kcell (c, sendIx k) = sendCell c k := by revert c k; decide
theorem kcell_recv (c : Dev nD) (k : Fin 3) : kcell (c, recvIx k) = recvCell c k := by revert c k; decide

/-- The credit of one `[1, 256]` transfer. -/
abbrev N : ℕ := (lM : Memref sig .tc .vmem S1x256 .f32).view.dmaCredit
theorem N_pos : 0 < N := View.dmaCredit_pos _ (by decide)
theorem slot_amount (k : Fin 3) (sm : DmaSem sig) : (slotM k).view.amount (.dma sm) = N := by revert k sm; decide

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s column sums of its block: the `[1, 256]` row it stores and sends. -/
def lsum (c : Dev nD) : (cc0_scratch0 : Ref sig .tc).ty.Contents (Elt F) := k0_pay1 (xstg m ρ c)

/-- Device `c`'s landing buffer once the three copies have landed: row `k` holds the column sums of `src c k`. -/
def landed (c : Dev nD) : (cc0_scratch1 : Ref sig .tc).ty.Contents (Elt F) :=
  fun i => lsum m ρ (src c ⟨(i 0).val, (i 0).isLt⟩) (fun a => match a with
    | ⟨0, _⟩ => ⟨(i 1).val, (i 1).isLt⟩
    | ⟨1, _⟩ => ⟨(i 2).val, (i 2).isLt⟩)

/-- The kernel's result on device `c`: its own sums plus the three landed rows, scaled. -/
def outAt (c : Dev nD) : (cc0_stg1_0 : Ref sig .tc).ty.Contents (Elt F) :=
  k0_pay2 (lsum m ρ c) ((cM : Memref sig .tc .vmem S3x1x256 .f32).view.readAt (Elt F) (slotR 0).toLoadRect (landed m ρ c))
    ((cM : Memref sig .tc .vmem S3x1x256 .f32).view.readAt (Elt F) (slotR 1).toLoadRect (landed m ρ c))
    ((cM : Memref sig .tc .vmem S3x1x256 .f32).view.readAt (Elt F) (slotR 2).toLoadRect (landed m ρ c))

/-- Slot `k` of device `c`'s landing buffer, held whole at contents `f`; -/
def slotAny (c : Dev nD) (k : Fin 3) (f : Buf (Elt F) ((slotM k).view.loc (c : Thread nD τ))) : sProp 𝕄 :=
  (slotM k).view.loc (c : Thread nD τ) ↦[(slotM k).view.set]{fullShare} f
/-- at the landed contents; -/
def slotPts (c : Dev nD) (k : Fin 3) : sProp 𝕄 := slotAny c k (landed m ρ c)
/-- a share of the device's own sums; -/
def locPts (c : Dev nD) (q : PosShare TreeShare) (f : Buf (Elt F) ((lM : Memref sig .tc .vmem S1x256 .f32).view.loc (c : Thread nD τ))) : sProp 𝕄 :=
  (lM : Memref sig .tc .vmem S1x256 .f32).view.loc (c : Thread nD τ) ↦[(lM : Memref sig .tc .vmem S1x256 .f32).view.set]{q} f

omit [FloatOps F] in
instance slotAny_storable (c : Dev nD) (k : Fin 3) (f) : BI.Storable (upEmb : UEmb _ 𝕄) (slotAny (F := F) c k f) := by unfold slotAny; infer_instance
instance slotPts_storable (c : Dev nD) (k : Fin 3) : BI.Storable (upEmb : UEmb _ 𝕄) (slotPts (F := F) m ρ c k) := by unfold slotPts; infer_instance
omit [FloatOps F] in
instance locPts_storable (c : Dev nD) (q) (f) : BI.Storable (upEmb : UEmb _ 𝕄) (locPts (F := F) c q f) := by unfold locPts; infer_instance

end Cert.KernelIdeal.AR

end
-- ==== Proof.Sched.lean ====
/-
  The protocol as a schedule of rounds. Every cell has ONE round. A device's barrier cell has three duties of one
  unit each: duty `d` is paid by `peer c d` and hands `c` row `d` of that device's landing buffer — the destination of
  `c`'s `d`-th copy — with the fact that the row's receive cell is at its first round. Send cell `k` has one duty, paid by
  the device's own `k`-th copy once the source is read: it gives back the share of the device's sums the copy read
  from. Receive cell `k` has one duty, paid by the copy of `src c k` once it has landed: row `k` at the landed contents.
-/
import proofs.«900955_g7700000000000956_dist_mean_ax0_shard0_i_m512_n256_v7x_i4_bf16_1_alg».proof.Proof.Gen.KernelIdeal
import proofs.«900955_g7700000000000956_dist_mean_ax0_shard0_i_m512_n256_v7x_i4_bf16_1_alg».proof.Proof.Gen.KernelIdeal.Skeleton
import proofs.«900955_g7700000000000956_dist_mean_ax0_shard0_i_m512_n256_v7x_i4_bf16_1_alg».proof.Proof.Gen.KernelIdeal.Launch
import proofs.«900955_g7700000000000956_dist_mean_ax0_shard0_i_m512_n256_v7x_i4_bf16_1_alg».proof.Proof.Gen.KernelIdeal.Points
import Idealize.ShloMosaic.Lib.Pipeline.Launch
import Idealize.ShloMosaic.Lib.Pipeline.Kit
import Idealize.ShloMosaic.Lib.Tactic
import proofs.«900955_g7700000000000956_dist_mean_ax0_shard0_i_m512_n256_v7x_i4_bf16_1_alg».proof.Proof.Mesh

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which semaphore a location is -/

def sendK (sm : SemLoc sig) : Option (Fin 3) :=
  if sm = .dma (sendS 0) then some 0 else if sm = .dma (sendS 1) then some 1 else if sm = .dma (sendS 2) then some 2 else none
def recvK (sm : SemLoc sig) : Option (Fin 3) :=
  if sm = .dma (recvS 0) then some 0 else if sm = .dma (recvS 1) then some 1 else if sm = .dma (recvS 2) then some 2 else none

theorem sendK_send (k : Fin 3) : sendK (.dma (sendS k)) = some k := by revert k; decide
theorem recvK_recv (k : Fin 3) : recvK (.dma (recvS k)) = some k := by revert k; decide
theorem sendK_recv (k : Fin 3) : sendK (.dma (recvS k)) = none := by revert k; decide
theorem recvK_send (k : Fin 3) : recvK (.dma (sendS k)) = none := by revert k; decide
theorem sendK_bar : sendK (.reg barS) = none := by decide
theorem recvK_bar : recvK (.reg barS) = none := by decide
theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h
theorem send_ne_recv (j k : Fin 3) : (SemLoc.dma (sendS j) : SemLoc sig) ≠ .dma (recvS k) := by revert j k; decide
theorem send_inj (j k : Fin 3) (h : (SemLoc.dma (sendS j) : SemLoc sig) = .dma (sendS k)) : j = k := by revert j k; decide
theorem recv_inj (j k : Fin 3) (h : (SemLoc.dma (recvS j) : SemLoc sig) = .dma (recvS k)) : j = k := by revert j k; decide

/-! ## The shares of a device's own sums: one per copy, one kept for the device's own load -/

def shareOf : Fin 3 → PosShare TreeShare
  | 0 => fullShare.left.left
  | 1 => fullShare.left.right
  | 2 => fullShare.right.left
abbrev shareKept : PosShare TreeShare := fullShare.right.right

/-! ## The payloads -/

/-- Duty `d` of `c`'s barrier cell, paid by `peer c d`: that device's row `d`, and its receive cell `d` at round 0. -/
def barPay (c : Dev nD) (d : Fin 3) : sProp 𝕄 := iprop((∃ f, slotAny (peer c d) d f) ∗ reached ER (recvCell (peer c d) d) 0)
def recvPay (c : Dev nD) (k : Fin 3) : sProp 𝕄 := slotPts m ρ c k
def sendPay (c : Dev nD) (k : Fin 3) : sProp 𝕄 := locPts c (shareOf k) (lsum m ρ c)

/-! ## The schedule -/

def sched : Rounds.Schedule (GSem nD τ sig) (Fin 3) 𝕄 where
  duties g r :=
    if r = 0 ∧ g.1.2 = .tc then
      (if g.2 = .reg barS then Finset.univ else if (sendK g.2).isSome ∨ (recvK g.2).isSome then {0} else ∅)
    else ∅
  unitless _ := False
  amount g _ _ := if g.2 = .reg barS then 1 else N
  payload g _ d :=
    if g.2 = .reg barS then barPay g.1.1 d
    else match recvK g.2 with
      | some k => recvPay m ρ g.1.1 k
      | none => match sendK g.2 with
        | some k => sendPay m ρ g.1.1 k
        | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else match recvK g.2 with
      | some k => recvPay m ρ g.1.1 k
      | none => match sendK g.2 with
        | some k => sendPay m ρ g.1.1 k
        | none => iprop(emp))
  unfold barPay recvPay sendPay
  (repeat' split) <;> infer_instance

section Sched
variable (c : Dev nD) (k : Fin 3)

theorem duties_bar : (sched (F := F) m ρ).duties (barCell c) 0 = Finset.univ := by
  dsimp only [sched]; rw [if_pos ⟨rfl, rfl⟩, if_pos rfl]
theorem duties_send : (sched (F := F) m ρ).duties (sendCell c k) 0 = {0} := by
  dsimp only [sched]; rw [if_pos ⟨rfl, rfl⟩, if_neg (send_ne_bar k), if_pos (Or.inl (by rw [sendK_send]; rfl))]
theorem duties_recv : (sched (F := F) m ρ).duties (recvCell c k) 0 = {0} := by
  dsimp only [sched]; rw [if_pos ⟨rfl, rfl⟩, if_neg (recv_ne_bar k), if_pos (Or.inr (by rw [recvK_recv]; rfl))]
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := by dsimp only [sched]; exact if_pos rfl
theorem amount_send (d : Fin 3) : (sched (F := F) m ρ).amount (sendCell c k) 0 d = N := by dsimp only [sched]; exact if_neg (send_ne_bar k)
theorem amount_recv (d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c k) 0 = N := by
  unfold Schedule.expect Schedule.amountOf; rw [duties_send, Finset.sum_singleton, amount_send]
theorem expect_recv : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_send (d : Fin 3) : (sched (F := F) m ρ).payload (sendCell c k) 0 d = sendPay m ρ c k := by
  dsimp only [sched]; rw [if_neg (send_ne_bar k), recvK_send, sendK_send]
theorem payload_recv (d : Fin 3) : (sched (F := F) m ρ).payload (recvCell c k) 0 d = recvPay m ρ c k := by
  dsimp only [sched]; rw [if_neg (recv_ne_bar k), recvK_recv]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three rows the device's copies will write. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each device owes at launch, in the order it pays; the levels -/

/-- Before copy 2, copy 1, copy 0 (that is: at the barrier wait); before signal 2, signal 1, signal 0 (at launch). -/
def Oc5 (c : Dev nD) : CellTallies nD τ sig Unit := 0 + tallyAt (recvCell (peer c 2) 2) () N
def Oc4 (c : Dev nD) : CellTallies nD τ sig Unit := Oc5 c + tallyAt (recvCell (peer c 1) 1) () N
def Oc3 (c : Dev nD) : CellTallies nD τ sig Unit := Oc4 c + tallyAt (recvCell (peer c 0) 0) () N
def Oc2 (c : Dev nD) : CellTallies nD τ sig Unit := Oc3 c + tallyAt (barCell (peer c 2)) () 1
def Oc1 (c : Dev nD) : CellTallies nD τ sig Unit := Oc2 c + tallyAt (barCell (peer c 1)) () 1
def O₀ (c : Dev nD) : CellTallies nD τ sig Unit := Oc1 c + tallyAt (barCell (peer c 0)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvK g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (k : Fin 3) (u : Unit) : lv (recvCell c k) u = 2 := by
  dsimp only [lv]; rw [if_neg (recv_ne_bar k), if_pos (by rw [recvK_recv]; rfl)]

theorem Oc3_pos {c : Dev nD} {g : GSem nD τ sig} {u : Unit} (h : 0 < Oc3 c g u) : ∃ k, g = recvCell (peer c k) k := by
  unfold Oc3 Oc4 Oc5 at h
  simp only [Pi.add_apply, Finsupp.add_apply, Pi.zero_apply, Finsupp.zero_apply, tallyAt_apply, Nat.zero_add] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k, g = recvCell (peer c k) k) ∨ ∃ k, g = barCell (peer c k) := by
  by_cases h3 : 0 < Oc3 c g u
  · exact Or.inl (Oc3_pos h3)
  · refine Or.inr ?_
    unfold O₀ Oc1 Oc2 at h
    simp only [Pi.add_apply, Finsupp.add_apply, tallyAt_apply] at h
    by_contra hn
    rw [not_exists] at hn
    rw [if_neg (fun h' => hn 2 h'.1), if_neg (fun h' => hn 1 h'.1), if_neg (fun h' => hn 0 h'.1)] at h
    omega

/-- A wait on a staging or send semaphore, owing everything or nothing. -/
theorem mayWait_low (c : Dev nD) (q : DmaSem sig) (hq : recvK (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [if_neg (fun h => by cases h), hq]; rfl)
      (fun g u hg => by
        rcases O₀_pos hg with ⟨k, rfl⟩ | ⟨k, rfl⟩
        · rw [lv_recv]; decide
        · rw [lv_bar]; decide)
  · rw [MayWait_zero]; iintro -; iempintro

/-- At its barrier wait a device owes its three copies' receive credits only: receive cells, above its barrier cell. -/
theorem mayWait_bar (c : Dev nD) :
    (levAts L lv : sProp 𝕄) ⊢ MayWait (c : Thread nD τ) (.reg barS) () (Oc3 c) :=
  MayOwe.of_cut (L := L) (lev := lv) 1 (fun p hp => by rw [Finset.mem_singleton.mp hp, L_tc]; exact Finset.mem_singleton_self _)
    (fun g u hg => by obtain ⟨k, rfl⟩ := Oc3_pos hg; rw [L_tc]; exact Finset.mem_singleton_self _)
    (fun p hp => by rw [Finset.mem_singleton.mp hp]; exact le_of_eq (lv_bar c ()))
    (fun g u hg => by obtain ⟨k, rfl⟩ := Oc3_pos hg; rw [lv_recv]; decide)

end Cert.KernelIdeal.AR

end
-- ==== Proof.Ghost.lean ====
/-
  What a device's body starts from and ends with, and the pipeline's proof data: the interface between the body's
  proof and the launch.
-/
import proofs.«900955_g7700000000000956_dist_mean_ax0_shard0_i_m512_n256_v7x_i4_bf16_1_alg».proof.Proof.Gen.KernelIdeal
import proofs.«900955_g7700000000000956_dist_mean_ax0_shard0_i_m512_n256_v7x_i4_bf16_1_alg».proof.Proof.Gen.KernelIdeal.Skeleton
import proofs.«900955_g7700000000000956_dist_mean_ax0_shard0_i_m512_n256_v7x_i4_bf16_1_alg».proof.Proof.Gen.KernelIdeal.Launch
import proofs.«900955_g7700000000000956_dist_mean_ax0_shard0_i_m512_n256_v7x_i4_bf16_1_alg».proof.Proof.Gen.KernelIdeal.Points
import Idealize.ShloMosaic.Lib.Pipeline.Launch
import Idealize.ShloMosaic.Lib.Pipeline.Kit
import Idealize.ShloMosaic.Lib.Tactic
import proofs.«900955_g7700000000000956_dist_mean_ax0_shard0_i_m512_n256_v7x_i4_bf16_1_alg».proof.Proof.Sched

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The cells' invariants device `c`'s body opens, under the names `K` the launch allocated them at: its own seven, its
    three peers' barrier cells (its signals) and, of peer `k`, receive cell `k` (its `k`-th copy). -/
def invs (K : Dev nD × Fin 7 → ℕ) (c : Dev nD) : sProp 𝕄 :=
  iprop(cellInv ER (sched m ρ) (K (c, 0)) (barCell c)
    ∗ (bigSep Finset.univ fun k : Fin 3 => cellInv ER (sched m ρ) (K (c, sendIx k)) (sendCell c k))
    ∗ (bigSep Finset.univ fun k : Fin 3 => cellInv ER (sched m ρ) (K (c, recvIx k)) (recvCell c k))
    ∗ (bigSep Finset.univ fun k : Fin 3 => cellInv ER (sched m ρ) (K (peer c k, 0)) (barCell (peer c k)))
    ∗ (bigSep Finset.univ fun k : Fin 3 => cellInv ER (sched m ρ) (K (peer c k, recvIx k)) (recvCell (peer c k) k)))

instance invs_persistent (K : Dev nD × Fin 7 → ℕ) (c : Dev nD) : BI.Persistent (invs m ρ K c) := by unfold invs; infer_instance

/-- The rounds' ghost state device `c` starts from: the invariants; its positions at round 0 of its seven cells; the
    reached-marks of the cells it pays and of its own send and receive cells; the nine duty tokens it pays with — of peer
    `k`'s barrier cell the duty `rev k` (the one `c` is the payer of), of peer `k`'s receive cell `k`, of its own send cells. -/
def ghost (K : Dev nD × Fin 7 → ℕ) (c : Dev nD) : sProp 𝕄 :=
  iprop(invs m ρ K c
    ∗ atPos ER (barCell c) 0 ∅ 0
    ∗ (bigSep Finset.univ fun k : Fin 3 => atPos ER (sendCell c k) 0 ∅ 0)
    ∗ (bigSep Finset.univ fun k : Fin 3 => atPos ER (recvCell c k) 0 ∅ 0)
    ∗ (bigSep Finset.univ fun k : Fin 3 => reached ER (barCell (peer c k)) 0)
    ∗ (bigSep Finset.univ fun k : Fin 3 => reached ER (recvCell (peer c k) k) 0)
    ∗ (bigSep Finset.univ fun k : Fin 3 => reached ER (sendCell c k) 0)
    ∗ (bigSep Finset.univ fun k : Fin 3 => reached ER (recvCell c k) 0)
    ∗ (bigSep Finset.univ fun k : Fin 3 => dutyTok ER (barCell (peer c k)) 0 (rev k))
    ∗ (bigSep Finset.univ fun k : Fin 3 => dutyTok ER (recvCell (peer c k) k) 0 0)
    ∗ (bigSep Finset.univ fun k : Fin 3 => dutyTok ER (sendCell c k) 0 0))

/-- What device `c`'s body starts from: that at some names, its credit tokens (its barrier's three units, its three receive
    cells' credits) and the level facts. -/
def start (c : Dev nD) : sProp 𝕄 :=
  iprop((∃ K, ghost m ρ K c) ∗ cred (tallyAt (barCell c) () 3)
    ∗ (bigSep Finset.univ fun k : Fin 3 => cred (tallyAt (recvCell c k) () N)) ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers, and the six OWN cells at zero, closed (the barrier cell is the runtime's). -/
def Φ₁ (c : Dev nD) : sProp 𝕄 :=
  iprop(scratch c ∗ (bigSep Finset.univ fun k : Fin 3 => semVal (sendCell c k) 0) ∗ (bigSep Finset.univ fun k : Fin 3 => semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.AR

end
-- ==== Proof.Bufs.lean ====
/-
  The landing buffer of one device, row by row. The `[3, 1, 256]` buffer is the disjoint union of its three rows;
  row `k` is what the `k`-th remote copy writes through and what the `k`-th vector load reads. Stated here: the rows'
  element sets, the buffer cut into its rows and put together again, the contents a copy leaves in a row, and the
  value a load of a row reads.
-/
import proofs.«900955_g7700000000000956_dist_mean_ax0_shard0_i_m512_n256_v7x_i4_bf16_1_alg».proof.Proof.Mesh
import Idealize.ShloMosaic.Lib.Pipeline.Value
import Idealize.ShloMosaic.Lib.ValueIdx

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The rows' element sets -/

/-- Row `k`'s elements are those of its rectangle: squeezing keeps the elements, the slice of the whole buffer has the
    rectangle's. -/
theorem slot_set_eq (k : Fin 3) : (slotM k).view.set = (slotR k).set := by
  show (((View.whole cc0_scratch1).slice (slotR k)).reshape S1x256 _).set = _
  rw [View.set_reshape, View.set_slice_whole]

/-- An element of the buffer lies in row `k` exactly when its leading coordinate is `k`. -/
theorem mem_slot_set (k : Fin 3) (i : S3x1x256.Idx) : i ∈ (slotM k).view.set ↔ (i 0).val = k.val := by
  rw [slot_set_eq, Rect.mem_set_unit]
  constructor
  · intro h
    have h0 : k.val ≤ (i 0).val ∧ (i 0).val < k.val + 1 := h 0
    omega
  · intro h a
    match a with
    | ⟨0, _⟩ => exact (show k.val ≤ (i 0).val ∧ (i 0).val < k.val + 1 by omega)
    | ⟨1, _⟩ => exact (show 0 ≤ (i 1).val ∧ (i 1).val < 0 + 1 from ⟨Nat.zero_le _, by have := (i 1).isLt; exact (Nat.zero_add 1).symm ▸ this⟩)
    | ⟨2, _⟩ => exact (show 0 ≤ (i 2).val ∧ (i 2).val < 0 + 256 from ⟨Nat.zero_le _, by have := (i 2).isLt; exact (Nat.zero_add 256).symm ▸ this⟩)

/-! ## Where a row's index sits in the buffer, and what the landed contents hold there -/

/-- Column `j` of row `k`, as the squeezed `[1, 256]` view names it, is element `(k, 0, j)` of the buffer. -/
theorem slot_emb (k : Fin 3) (j : Fin 256) :
    (slotM k).view.emb (ix2 (0 : Fin 1) j) = ix3 k (0 : Fin 1) j := by
  show (slotR k).emb (Shape.reshapeEquiv (s := S1x1x256) (s' := S1x256) _ (ix2 (0 : Fin 1) j)) = ix3 k (0 : Fin 1) j
  rw [Shape.reshapeEquiv_eq_of_rowMajor (s := S1x1x256) (s' := S1x256) _ (y := ix3 (0 : Fin 1) (0 : Fin 1) j)
    (by rw [Shape.rowMajor_val_three, Shape.rowMajor_val_two]; rfl)]
  funext a
  apply Fin.ext
  match a with
  | ⟨0, _⟩ => exact (show k.val + 1 * 0 = k.val by omega)
  | ⟨1, _⟩ => exact (show 0 + 1 * 0 = 0 by omega)
  | ⟨2, _⟩ => exact (show 0 + 1 * j.val = j.val by omega)

/-- Every index of a `[1, 256]` view is a column of its one row. -/
theorem eq_ix2_zero (y : S1x256.Idx) : y = ix2 (0 : Fin 1) (y 1) := by
  funext a
  match a with
  | ⟨0, _⟩ => exact Subsingleton.elim (α := Fin 1) _ _
  | ⟨1, _⟩ => rfl

/-- The landed contents at `(k, 0, j)`: column `j` of the sums of the device `k + 1` places before. -/
theorem landed_row (c : Dev nD) (k : Fin 3) (j : Fin 256) :
    landed m ρ c (ix3 k (0 : Fin 1) j) = lsum m ρ (src c k) (ix2 (0 : Fin 1) j) := by
  unfold landed
  exact congrArg (lsum m ρ (src c k)) (funext fun a => match a with | ⟨0, _⟩ => rfl | ⟨1, _⟩ => rfl)

/-! ## What a copy leaves in a row -/

/-- Device `c`'s `k`-th copy writes its whole row of sums through row `k` of device `peer c k`: on that row's elements
    the buffer then holds the landed contents (the device `k + 1` places before `peer c k` is `c`). -/
theorem land_slot (c : Dev nD) (k : Fin 3) (fd : Buf (Elt F) ((slotM k).view.loc (peer c k : Thread nD τ))) :
    (((slotM k).view.loc (peer c k : Thread nD τ)) ↦[(slotM k).view.set]{fullShare}
        ((slotM k).view.write (Elt F) fd ((lM : Memref sig .tc .vmem S1x256 .f32).view.read (Elt F) (lsum m ρ c)) Finset.univ) : sProp 𝕄)
      ⊢ slotPts m ρ (peer c k) k := by
  unfold slotPts slotAny
  refine Entails.of_eq (pointsTo_congr fun i hi => ?_)
  obtain ⟨y, rfl⟩ := View.exists_emb_of_mem_set _ hi
  obtain ⟨j, rfl⟩ : ∃ j : Fin 256, y = ix2 (0 : Fin 1) j := ⟨y 1, eq_ix2_zero y⟩
  rw [View.write_emb_of_mem _ _ (Finset.mem_univ _), slot_emb, landed_row, src_peer]
  exact cast_eq _ _

/-! ## What a load of a row reads -/

/-- The `[1, 1, 256]` index `(0, 0, j)` of the load's result sits at `(k, 0, j)` of the buffer. -/
theorem slot_idx (k : Fin 3) (j : Fin 256) :
    (slotR k).toLoadRect.idx (ix3 (0 : Fin 1) (0 : Fin 1) j) = ix3 k (0 : Fin 1) j := by
  funext a
  apply Fin.ext
  match a with
  | ⟨0, _⟩ => exact (show k.val + 1 * 0 = k.val by omega)
  | ⟨1, _⟩ => exact (show 0 + 1 * 0 = 0 by omega)
  | ⟨2, _⟩ => exact (show 0 + 1 * j.val = j.val by omega)

/-- A vector load of row `k` of the landed buffer reads the sums of the device `k + 1` places before. -/
theorem read_slot (c : Dev nD) (k : Fin 3) (j : Fin 256) :
    (cM : Memref sig .tc .vmem S3x1x256 .f32).view.readAt (Elt F) (slotR k).toLoadRect (landed m ρ c) (ix3 (0 : Fin 1) (0 : Fin 1) j)
      = lsum m ρ (src c k) (ix2 (0 : Fin 1) j) := by
  show landed m ρ c ((slotR k).toLoadRect.idx (ix3 (0 : Fin 1) (0 : Fin 1) j)) = _
  rw [slot_idx, landed_row]

/-- The elements that load touches are elements of row `k`. -/
theorem load_slot_sub (k : Fin 3) :
    (cM : Memref sig .tc .vmem S3x1x256 .f32).view.setOn (slotR k).toLoadRect.set ⊆ (slotM k).view.set := by
  rw [slot_set_eq]
  show Finset.map (Function.Embedding.refl _) (slotR k).set ⊆ (slotR k).set
  rw [Finset.map_refl]

/-! ## The buffer cut into its rows, and put together again -/

/-- Different rows share no element. -/
theorem slot_disjoint {j k : Fin 3} (h : j ≠ k) : Disjoint (slotM j).view.set (slotM k).view.set := by
  rw [Finset.disjoint_left]
  intro i hj hk
  have ej := (mem_slot_set j i).mp hj
  have ek := (mem_slot_set k i).mp hk
  exact h (Fin.ext (by omega))

/-- Every element lies in one of the three rows. -/
theorem slot_cover : (slotM 0).view.set ∪ ((slotM 1).view.set ∪ (slotM 2).view.set) = Finset.univ := by
  refine Finset.eq_univ_iff_forall.mpr fun i => ?_
  have h3 : (i 0).val < 3 := (i 0).isLt
  rcases (show (i 0).val = 0 ∨ (i 0).val = 1 ∨ (i 0).val = 2 by omega) with h | h | h
  · exact Finset.mem_union_left _ ((mem_slot_set 0 i).mpr h)
  · exact Finset.mem_union_right _ (Finset.mem_union_left _ ((mem_slot_set 1 i).mpr h))
  · exact Finset.mem_union_right _ (Finset.mem_union_right _ ((mem_slot_set 2 i).mpr h))

/-- Row 0 shares no element with rows 1 and 2 together. -/
theorem slot_disjoint_rest : Disjoint (slotM 0).view.set ((slotM 1).view.set ∪ (slotM 2).view.set) :=
  Finset.disjoint_union_right.mpr ⟨slot_disjoint (by decide), slot_disjoint (by decide)⟩

/-- The whole buffer at contents `f` is its three rows at `f`. -/
theorem comm_rows (c : Dev nD) (f : Buf (Elt F) ((c : Thread nD τ).loc cc0_scratch1)) :
    ((((c : Thread nD τ).loc cc0_scratch1) ↦{fullShare} f) : sProp 𝕄)
      ⊣⊢ iprop(slotAny c 0 f ∗ slotAny c 1 f ∗ slotAny c 2 f) := by
  unfold slotAny
  have h0 := pointsTo_union (nD := nD) (τ := τ) (sig := sig) (Ix := Unit) (Val := Elt F) (Name := ℕ) (U := UU) (Lvl := ℕ)
    (ℓ := (c : Thread nD τ).loc cc0_scratch1) (q := fullShare) (f := f) slot_disjoint_rest
  have h1 := pointsTo_union (nD := nD) (τ := τ) (sig := sig) (Ix := Unit) (Val := Elt F) (Name := ℕ) (U := UU) (Lvl := ℕ)
    (ℓ := (c : Thread nD τ).loc cc0_scratch1) (q := fullShare) (f := f) (slot_disjoint (j := 1) (k := 2) (by decide))
  rw [slot_cover] at h0
  exact ⟨h0.1.trans (sep_mono_r h1.1), (sep_mono_r h1.2).trans h0.2⟩

/-- The whole buffer at some contents is each row at some contents. -/
theorem comm_split (c : Dev nD) :
    iprop(∃ f : Buf (Elt F) ((c : Thread nD τ).loc cc0_scratch1), (((c : Thread nD τ).loc cc0_scratch1) ↦{fullShare} f))
      ⊢ (iprop((∃ f, slotAny c 0 f) ∗ (∃ f, slotAny c 1 f) ∗ (∃ f, slotAny c 2 f)) : sProp 𝕄) := by
  iintro ⟨%f, H⟩
  ihave H := (comm_rows c f).1 $$ H
  icases H with ⟨H0, H1, H2⟩
  isplitl [H0]
  · iexists f; iexact H0
  isplitl [H1]
  · iexists f; iexact H1
  · iexists f; iexact H2

/-- The three rows at the landed contents are the whole buffer at the landed contents. -/
theorem comm_join (c : Dev nD) :
    iprop(slotPts m ρ c 0 ∗ slotPts m ρ c 1 ∗ slotPts m ρ c 2)
      ⊢ (iprop(∃ f : Buf (Elt F) ((c : Thread nD τ).loc cc0_scratch1), (((c : Thread nD τ).loc cc0_scratch1) ↦{fullShare} f)) : sProp 𝕄) := by
  unfold slotPts
  iintro H
  ihave H := (comm_rows c (landed m ρ c)).2 $$ H
  iexists (landed m ρ c)
  iexact H

end Cert.KernelIdeal.AR

end
-- ==== Proof.Body.lean ====
/-
  One device's body, from the ghost state the launch deals it. The landing buffer is cut into its three rows first. Then
  the three signals (each hands a peer one row), the block loaded, the column sums stored and the barrier wait are stepped
  symbolically; the rows this device's copies will write come out of the barrier cell's round and the sums' points-to is
  cut into four shares; the three copies are applied by hand, each reading one share and landing in a peer's row at the
  contents `landed` names; the three receive waits, the loads, the result's store and the three send waits are stepped
  symbolically again; last the six own cells are closed and the shares and rows rejoined.
-/
import proofs.«900955_g7700000000000956_dist_mean_ax0_shard0_i_m512_n256_v7x_i4_bf16_1_alg».proof.Proof.Gen.KernelIdeal
import proofs.«900955_g7700000000000956_dist_mean_ax0_shard0_i_m512_n256_v7x_i4_bf16_1_alg».proof.Proof.Gen.KernelIdeal.Skeleton
import proofs.«900955_g7700000000000956_dist_mean_ax0_shard0_i_m512_n256_v7x_i4_bf16_1_alg».proof.Proof.Gen.KernelIdeal.Launch
import proofs.«900955_g7700000000000956_dist_mean_ax0_shard0_i_m512_n256_v7x_i4_bf16_1_alg».proof.Proof.Gen.KernelIdeal.Points
import Idealize.ShloMosaic.Lib.Pipeline.Launch
import Idealize.ShloMosaic.Lib.Pipeline.Kit
import Idealize.ShloMosaic.Lib.Tactic
import proofs.«900955_g7700000000000956_dist_mean_ax0_shard0_i_m512_n256_v7x_i4_bf16_1_alg».proof.Proof.Ghost
import proofs.«900955_g7700000000000956_dist_mean_ax0_shard0_i_m512_n256_v7x_i4_bf16_1_alg».proof.Proof.Bufs

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem pp02 (c : Dev nD) : peer (peer c 0) 2 = c := by revert c; decide
theorem pp11 (c : Dev nD) : peer (peer c 1) 1 = c := by revert c; decide
theorem pp20 (c : Dev nD) : peer (peer c 2) 0 = c := by revert c; decide
theorem rev_zero : rev 0 = 2 := by decide
theorem rev_one : rev 1 = 1 := by decide
theorem rev_two : rev 2 = 0 := by decide

section Body

omit [FloatOps F] in
/-- A whole buffer's points-to, through the memref that names the whole buffer. -/
theorem whole_pts (c : Dev nD) (b : Ref sig .tc) (q : PosShare TreeShare) (f : Buf (Elt F) ((c : Thread nD τ).loc b)) :
    ((((c : Thread nD τ).loc b) ↦{q} f) : sProp 𝕄)
      = ((Memref.whole b).view.loc (c : Thread nD τ) ↦[(Memref.whole b).view.set]{q} f) := by rw [View.set_whole]

variable (K : Dev nD × Fin 7 → ℕ)

abbrev rX : Rect S512x256 := Rect.unit (s := S512x256) ![0, 0] S512x256.size inb_S512x256_S512x256_0_0
abbrev rL : Rect S1x256 := Rect.unit (s := S1x256) ![0, 0] S1x256.size inb_S1x256_S1x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz _ f
omit [FloatOps F] in
theorem read_l (f : (cc0_scratch0 : Ref sig .tc).ty.Contents (Elt F)) : (lM : Memref sig .tc .vmem S1x256 .f32).view.readAt (Elt F) rL.toLoadRect f = f :=
  Memref.readAt_unit_zero (Elt F) cc0_scratch0 hz _ f
omit [FloatOps F] in
theorem write_l (f w : (cc0_scratch0 : Ref sig .tc).ty.Contents (Elt F)) :
    ((lM : Memref sig .tc .vmem S1x256 .f32).access rL : View sig .tc _ _ _).write (Elt F) f w Finset.univ = w :=
  Memref.write_access_unit_zero_univ (Elt F) cc0_scratch0 hz _ f w
omit [FloatOps F] in
theorem write_o (f w : (cc0_stg1_0 : Ref sig .tc).ty.Contents (Elt F)) :
    ((oM : Memref sig .tc .vmem S1x256 .f32).access rL : View sig .tc _ _ _).write (Elt F) f w Finset.univ = w :=
  Memref.write_access_unit_zero_univ (Elt F) cc0_stg1_0 hz _ f w

/-- Copy `k`: from a share of this device's sums into row `k` of `peer c k`, the transfer addressed to `n = peer c k`. -/
theorem wp_send_slot (c n : Dev nD) (k : Fin 3) (hn : n = peer c k)
    {hsc : (slotM k : Memref sig (Dev.tc n : Thread nD τ).2.kind .vmem S1x256 .f32).view.ref.isScScratch = false}
    {hsrc : (lM : Memref sig .tc .vmem S1x256 .f32).view.WordExact} {hdst : (slotM k : Memref sig .tc .vmem S1x256 .f32).view.WordExact}
    {hsem : DmaTarget.Typed .vmem (.dma (recvS k)) (.remote (Dev.tc n : Thread nD τ) (slotM k : Memref sig .tc .vmem S1x256 .f32) (.dma (sendS k)) hsc)}
    {α : Type} {Q : α → sProp 𝕄} {k' : PUnit → Prog (TpuEff nD τ sig (Elt F) Λ₀ .tc) α}
    (fn : Buf (Elt F) ((slotM k).view.loc (peer c k : Thread nD τ))) (O₁ O : CellTallies nD τ sig Unit)
    (hO : O₁ = O + tallyAt (recvCell (peer c k) k) () N) (W : Waits sig Unit) :
    iprop(cellInv ER (sched m ρ) (K (c, sendIx k)) (sendCell c k) ∗ cellInv ER (sched m ρ) (K (peer c k, recvIx k)) (recvCell (peer c k) k)
        ∗ locPts c (shareOf k) (lsum m ρ c) ∗ slotAny (peer c k) k fn
        ∗ owes (c : Thread nD τ) O₁ W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma lM (.remote (Dev.tc n : Thread nD τ) (slotM k) (.dma (sendS k)) hsc) (.dma (recvS k)) hsrc hdst hsem) k') Q) := by
  subst hn
  unfold locPts slotAny
  exact Rounds.wp_send_pointsTo 𝒱₀ ER (sched m ρ) (c : Thread nD τ) none (κ₁ := K (c, sendIx k)) (κ₂ := K (peer c k, recvIx k))
    (r₁ := 0) (r₂ := 0) (d₁ := 0) (d₂ := 0) (fd := fn)
    (by rw [duties_send]; exact Finset.mem_singleton_self _) (by rw [duties_recv]; exact Finset.mem_singleton_self _)
    () () N (slot_amount k _) (amount_send m ρ c k 0) (amount_recv m ρ (peer c k) k 0) O hO (W := W)
    (by rw [payload_send]; exact BI.Entails.refl _)
    (by rw [payload_recv]; exact land_slot m ρ c k fn)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 3) ∗ (bigSep Finset.univ fun k : Fin 3 => cred (tallyAt (recvCell c k) () N)) ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem fetch_0 (t : Fin cfg0.N) : (cfg0.win (0 : Fin 2)).fetch t = true := by rw [fin_N t]; rfl

abbrev W1 (W : Waits sig Unit) : Waits sig Unit := insert (SemLoc.reg barS, ()) W

theorem payload_bar_lit (c : Dev nD) (j d : Fin 3) (h : peer (peer c j) d = c) :
    (sched (F := F) m ρ).payload (barCell (peer c j)) 0 d
      = iprop((∃ f : Buf (Elt F) ((slotM d).view.loc (c : Thread nD τ)), ((slotM d).view.loc (c : Thread nD τ) ↦[(slotM d).view.set]{fullShare} f)) ∗ reached ER (recvCell c d) 0) := by
  rw [payload_bar]; unfold barPay slotAny; rw [h]
theorem payload_bar_02 (c : Dev nD) : (sched (F := F) m ρ).payload (barCell (peer c 0)) 0 2
      = iprop((∃ f : Buf (Elt F) ((slotM 2).view.loc (c : Thread nD τ)), ((slotM 2).view.loc (c : Thread nD τ) ↦[(slotM 2).view.set]{fullShare} f)) ∗ reached ER (recvCell c 2) 0) :=
  payload_bar_lit m ρ c 0 2 (pp02 c)
theorem payload_bar_11 (c : Dev nD) : (sched (F := F) m ρ).payload (barCell (peer c 1)) 0 1
      = iprop((∃ f : Buf (Elt F) ((slotM 1).view.loc (c : Thread nD τ)), ((slotM 1).view.loc (c : Thread nD τ) ↦[(slotM 1).view.set]{fullShare} f)) ∗ reached ER (recvCell c 1) 0) :=
  payload_bar_lit m ρ c 1 1 (pp11 c)
theorem payload_bar_20 (c : Dev nD) : (sched (F := F) m ρ).payload (barCell (peer c 2)) 0 0
      = iprop((∃ f : Buf (Elt F) ((slotM 0).view.loc (c : Thread nD τ)), ((slotM 0).view.loc (c : Thread nD τ) ↦[(slotM 0).view.set]{fullShare} f)) ∗ reached ER (recvCell c 0) 0) :=
  payload_bar_lit m ρ c 2 0 (pp20 c)
theorem payload_recv_lit (c : Dev nD) (k d : Fin 3) : (sched (F := F) m ρ).payload (recvCell c k) 0 d
    = ((slotM k).view.loc (c : Thread nD τ) ↦[(slotM k).view.set]{fullShare} landed m ρ c : sProp 𝕄) := by
  rw [payload_recv]; rfl

theorem payload_send_0 (c : Dev nD) (d : Fin 3) : (sched (F := F) m ρ).payload (sendCell c 0) 0 d
    = ((lM : Memref sig .tc .vmem S1x256 .f32).view.loc (c : Thread nD τ) ↦[(lM : Memref sig .tc .vmem S1x256 .f32).view.set]{fullShare.left.left} lsum m ρ c : sProp 𝕄) := by
  rw [payload_send]; rfl
theorem payload_send_1 (c : Dev nD) (d : Fin 3) : (sched (F := F) m ρ).payload (sendCell c 1) 0 d
    = ((lM : Memref sig .tc .vmem S1x256 .f32).view.loc (c : Thread nD τ) ↦[(lM : Memref sig .tc .vmem S1x256 .f32).view.set]{fullShare.left.right} lsum m ρ c : sProp 𝕄) := by
  rw [payload_send]; rfl
theorem payload_send_2 (c : Dev nD) (d : Fin 3) : (sched (F := F) m ρ).payload (sendCell c 2) 0 d
    = ((lM : Memref sig .tc .vmem S1x256 .f32).view.loc (c : Thread nD τ) ↦[(lM : Memref sig .tc .vmem S1x256 .f32).view.set]{fullShare.right.left} lsum m ρ c : sProp 𝕄) := by
  rw [payload_send]; rfl

/-- The barrier cell's round, duty by duty. -/
theorem bar_round (c : Dev nD) : bigSep Finset.univ (fun d => (sched (F := F) m ρ).payload (barCell c) 0 d) = iprop(barPay c 0 ∗ barPay c 1 ∗ barPay c 2) := by
  rw [bigSep_fin3, payload_bar, payload_bar, payload_bar]

/-- What the store of the column sums leaves in the device's own buffer. -/
theorem stored_l (c : Dev nD) (fl : (cc0_scratch0 : Ref sig .tc).ty.Contents (Elt F)) :
    (lM : Memref sig .tc .vmem S1x256 .f32).view.writes (Elt F) fl
        [⟨rL, k0_pay1 ((xM : Memref sig .tc .vmem S512x256 .f32).view.readAt (Elt F) rX.toLoadRect (xstg m ρ c))⟩] = lsum m ρ c := by
  rw [read_x]; exact (View.writes_singleton _ _ _ _).trans (write_l fl _)

/-- What the store of the result leaves in its staging buffer. -/
theorem stored_o (g w : (cc0_stg1_0 : Ref sig .tc).ty.Contents (Elt F)) :
    (oM : Memref sig .tc .vmem S1x256 .f32).view.writes (Elt F) g [⟨rL, w⟩] = w :=
  (View.writes_singleton _ _ _ _).trans (write_o g w)

attribute [local sl_rounds] payload_send_0 payload_send_1 payload_send_2 duties_bar duties_send duties_recv amount_bar amount_send amount_recv expect_bar expect_send expect_recv
  payload_bar_02 payload_bar_11 payload_bar_20 payload_recv_lit
attribute [local sl_canon] dev1_eq dev2_eq dev3_eq dev4_eq dev5_eq dev6_eq

set_option sl_exec.respelt true in
set_option maxHeartbeats 1600000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs scratch
  simp only [bigSep_fin3, rev_zero, rev_one, rev_two]
  iintro ⟨⟨⟨⟨⟨#HIB, ⟨#HIS0, #HIS1, #HIS2⟩, ⟨#HIR0, #HIR1, #HIR2⟩, ⟨#HIBP0, #HIBP1, #HIBP2⟩, #HIRP0, #HIRP1, #HIRP2⟩,
      HaB, ⟨HaS0, HaS1, HaS2⟩, ⟨HaR0, HaR1, HaR2⟩, ⟨#HrBP0, #HrBP1, #HrBP2⟩, ⟨#HrRP0, #HrRP1, #HrRP2⟩, ⟨#HrS0, #HrS1, #HrS2⟩, ⟨#HrR0, #HrR1, #HrR2⟩,
      ⟨HtB0, HtB1, HtB2⟩, ⟨HtR0, HtR1, HtR2⟩, HtS0, HtS1, HtS2⟩,
      HcB, ⟨HcR0, HcR1, HcR2⟩, #Hlev, ⟨%fl, Hloc⟩, Hcomm⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer, cut into its three rows
  ihave Hrows := (comm_split (F := F) c) $$ Hcomm
  icases Hrows with ⟨Hr0, Hr1, Hr2⟩
  icases Hr2 with ⟨%fs2, Hd2⟩
  icases Hr1 with ⟨%fs1, Hd1⟩
  icases Hr0 with ⟨%fs0, Hd0⟩

  unfold O₀ Oc1 Oc2 Oc3 Oc4 Oc5 slotAny
  have hmw := mayWait_bar (F := F) c
  ihave Hx := (Entails.of_eq (whole_pts c cc0_stg0_0 fullShare _)) $$ Hx
  ihave Hloc := (Entails.of_eq (whole_pts c cc0_scratch0 fullShare _)) $$ Hloc
  ihave Hout := (Entails.of_eq (whole_pts c cc0_stg1_0 fullShare _)) $$ Hout
  -- the three signals, the block loaded, the sums stored, the barrier wait
  sl_exec
  -- the rows this device's copies write come out of the barrier cell's round
  ihave Hp := (Entails.of_eq (bar_round m ρ c)) $$ HaB_pay1
  unfold barPay
  icases Hp with ⟨⟨⟨%fn0, Hn0⟩, #HrV0⟩, ⟨⟨%fn1, Hn1⟩, #HrV1⟩, ⟨%fn2, Hn2⟩, #HrV2⟩
  -- the sums' points-to in four shares: one per copy, one kept
  rw [stored_l m ρ c fl]
  ihave Hsh := (pointsTo_share (PosShare.mem_left_op_right fullShare)).1 $$ Hloc
  icases Hsh with ⟨HL, HR⟩
  ihave Hsh := (pointsTo_share (PosShare.mem_left_op_right fullShare.left)).1 $$ HL
  icases Hsh with ⟨HLL, HLR⟩
  ihave Hsh := (pointsTo_share (PosShare.mem_left_op_right fullShare.right)).1 $$ HR
  icases Hsh with ⟨HRL, HRR⟩
  -- copy 0: a share of the sums into row 0 of `peer c 0` (by hand: the landed contents are restated by `land_slot`)
  iapply (wp_send_slot m ρ K c _ 0 (dev4_eq c) fn0 (0 + tallyAt (recvCell (peer c 2) 2) () N + tallyAt (recvCell (peer c 1) 1) () N + tallyAt (recvCell (peer c 0) 0) () N) (0 + tallyAt (recvCell (peer c 2) 2) () N + tallyAt (recvCell (peer c 1) 1) () N) rfl (W1 W)) $$ [HLL Hn0 HO HtS0 HtR0]
  · isplitr; · iexact HIS0
    isplitr; · iexact HIRP0
    isplitl [HLL]; · unfold locPts; iexact HLL
    isplitl [Hn0]; · iexact Hn0
    isplitl [HO]; · iexact HO
    isplitl [HtS0]; · iexact HtS0
    isplitr; · iexact HrS0
    isplitl [HtR0]; · iexact HtR0
    iexact HrRP0
  iintro ⟨HcS0, HO⟩
  -- copy 1: a share of the sums into row 1 of `peer c 1` (by hand: the landed contents are restated by `land_slot`)
  iapply (wp_send_slot m ρ K c _ 1 (dev5_eq c) fn1 (0 + tallyAt (recvCell (peer c 2) 2) () N + tallyAt (recvCell (peer c 1) 1) () N) (0 + tallyAt (recvCell (peer c 2) 2) () N) rfl (W1 W)) $$ [HLR Hn1 HO HtS1 HtR1]
  · isplitr; · iexact HIS1
    isplitr; · iexact HIRP1
    isplitl [HLR]; · unfold locPts; iexact HLR
    isplitl [Hn1]; · iexact Hn1
    isplitl [HO]; · iexact HO
    isplitl [HtS1]; · iexact HtS1
    isplitr; · iexact HrS1
    isplitl [HtR1]; · iexact HtR1
    iexact HrRP1
  iintro ⟨HcS1, HO⟩
  -- copy 2: a share of the sums into row 2 of `peer c 2` (by hand: the landed contents are restated by `land_slot`)
  iapply (wp_send_slot m ρ K c _ 2 (dev6_eq c) fn2 (0 + tallyAt (recvCell (peer c 2) 2) () N) (0) rfl (W1 W)) $$ [HRL Hn2 HO HtS2 HtR2]
  · isplitr; · iexact HIS2
    isplitr; · iexact HIRP2
    isplitl [HRL]; · unfold locPts; iexact HRL
    isplitl [Hn2]; · iexact Hn2
    isplitl [HO]; · iexact HO
    isplitl [HtS2]; · iexact HtS2
    isplitr; · iexact HrS2
    isplitl [HtR2]; · iexact HtR2
    iexact HrRP2
  iintro ⟨HcS2, HO⟩
  -- the three receive waits, the loads, the result's store, the three send waits
  sl_exec
  -- the six own cells close: their counters at zero are the core's again
  imod (Rounds.cell_close ER (sched m ρ) (Set.mem_univ (K (c, sendIx 0))) (fun h => h) (R := 1) (duties_later m ρ (sendCell c 0))) $$ [HaS0] with HzS0
  · isplitr; · iexact HIS0
    iexact HaS0
  imod (Rounds.cell_close ER (sched m ρ) (Set.mem_univ (K (c, sendIx 1))) (fun h => h) (R := 1) (duties_later m ρ (sendCell c 1))) $$ [HaS1] with HzS1
  · isplitr; · iexact HIS1
    iexact HaS1
  imod (Rounds.cell_close ER (sched m ρ) (Set.mem_univ (K (c, sendIx 2))) (fun h => h) (R := 1) (duties_later m ρ (sendCell c 2))) $$ [HaS2] with HzS2
  · isplitr; · iexact HIS2
    iexact HaS2
  imod (Rounds.cell_close ER (sched m ρ) (Set.mem_univ (K (c, recvIx 0))) (fun h => h) (R := 1) (duties_later m ρ (recvCell c 0))) $$ [HaR0] with HzR0
  · isplitr; · iexact HIR0
    iexact HaR0
  imod (Rounds.cell_close ER (sched m ρ) (Set.mem_univ (K (c, recvIx 1))) (fun h => h) (R := 1) (duties_later m ρ (recvCell c 1))) $$ [HaR1] with HzR1
  · isplitr; · iexact HIR1
    iexact HaR1
  imod (Rounds.cell_close ER (sched m ρ) (Set.mem_univ (K (c, recvIx 2))) (fun h => h) (R := 1) (duties_later m ρ (recvCell c 2))) $$ [HaR2] with HzR2
  · isplitr; · iexact HIR2
    iexact HaR2
  -- the shares of the sums rejoined, the rows rejoined
  ihave HL := (pointsTo_share (PosShare.mem_left_op_right fullShare.left)).2 $$ [HaS0_pay1 HaS1_pay1]
  · isplitl [HaS0_pay1]; · iexact HaS0_pay1
    iexact HaS1_pay1
  ihave HR := (pointsTo_share (PosShare.mem_left_op_right fullShare.right)).2 $$ [HaS2_pay1 HRR]
  · isplitl [HaS2_pay1]; · iexact HaS2_pay1
    iexact HRR
  ihave Hloc := (pointsTo_share (PosShare.mem_left_op_right fullShare)).2 $$ [HL HR]
  · isplitl [HL]; · iexact HL
    iexact HR
  ihave Hloc := (Entails.of_eq (whole_pts c cc0_scratch0 fullShare _).symm) $$ Hloc
  ihave Hcomm := (comm_join m ρ c) $$ [HaR0_pay1 HaR1_pay1 HaR2_pay1]
  · unfold slotPts slotAny
    isplitl [HaR0_pay1]; · iexact HaR0_pay1
    isplitl [HaR1_pay1]; · iexact HaR1_pay1
    iexact HaR2_pay1
  -- what the result's store left
  rw [stored_o, read_l]
  ihave Hout := (Entails.of_eq (whole_pts c cc0_stg1_0 fullShare _).symm) $$ Hout
  ihave Hx := (Entails.of_eq (whole_pts c cc0_stg0_0 fullShare _).symm) $$ Hx
  rw [wp_ret]; imodintro
  iapply Hk
  unfold bodyPost Φ₁ scratch Dat.owesAt Pipeline.owesWithin
  rw [show (dats m ρ 0 c).owed t₀.succ = 0 from rfl]
  simp only [bigSep_fin3]
  isplitl [Hloc Hcomm HzS0 HzS1 HzS2 HzR0 HzR1 HzR2]
  · isplitl [Hloc Hcomm]
    · isplitl [Hloc]; · iexists _; iexact Hloc
      iexact Hcomm
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcR, Hlev⟩, Hscr⟩, Ho, Hx, Hout⟩
  iapply (sound_body m ρ K c fun _ => bodyPost m ρ c)
  unfold bodyPre
  isplitr []
  · isplitl [Hg HcB HcR Hlev Hscr]
    · isplitl [Hg]; · iexact Hg
      isplitl [HcB]; · iexact HcB
      isplitl [HcR]; · iexact HcR
      isplitl [Hlev]; · iexact Hlev
      iexact Hscr
    isplitl [Ho]; · iexact Ho
    isplitl [Hx] <;> iassumption
  · iintro H; iexact H

/-- info: 'Cert.KernelIdeal.AR.body_obligation' depends on axioms: [propext, Classical.choice, Quot.sound] -/
#guard_msgs in #print axioms body_obligation

end Body

end Cert.KernelIdeal.AR

end
-- ==== Proof.Launch.lean ====
/-
  The launch of the four-device kernel: the rounds' ghost state is funded for every device's seven cells and dealt —
  each barrier token to the device that pays it, each receive token to the device whose copy lands there —, every
  device's semaphores at zero become its cells' invariants under one update, the launch credit is sorted into each
  device's three barrier units and three receive credits, and the launch theorem gives the run of @main from each
  device's body obligation.
-/
import proofs.«900955_g7700000000000956_dist_mean_ax0_shard0_i_m512_n256_v7x_i4_bf16_1_alg».proof.Proof.Ghost
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: the layout facts, the cells and the duty tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- Every device's seven cells. -/
def protoCells : Finset (GSem nD τ sig) := Finset.univ.map ⟨kcell, kcell_injective⟩

/-- A device's own cells' duty tokens as minted: (device, kind, which) — kind 0 its barrier's duty `which`, kind 1 its
    send cell `which`'s one duty, kind 2 its receive cell `which`'s one duty. -/
abbrev tokOf (x : Dev nD × Fin 3 × Fin 3) : GSem nD τ sig × ℕ × Fin 3 := match x.2.1 with
  | 0 => (barCell x.1, 0, x.2.2) | 1 => (sendCell x.1 x.2.2, 0, 0) | 2 => (recvCell x.1 x.2.2, 0, 0)
theorem tokOf_injective : Function.Injective (tokOf : Dev nD × Fin 3 × Fin 3 → GSem nD τ sig × ℕ × Fin 3) := by
  rintro ⟨c, a, k⟩ ⟨c', a', k'⟩ h
  have h1 : c = c' := by
    have := congrArg (fun x : GSem nD τ sig × ℕ × Fin 3 => x.1.1.1) h
    fin_cases a <;> fin_cases a' <;> exact this
  subst h1
  have hs := congrArg (fun x : GSem nD τ sig × ℕ × Fin 3 => x.1.2) h
  have hd := congrArg (fun x : GSem nD τ sig × ℕ × Fin 3 => x.2.2) h
  fin_cases a <;> fin_cases a'
  · have : k = k' := hd
    subst this; rfl
  · exact absurd hs.symm (send_ne_bar k')
  · exact absurd hs.symm (recv_ne_bar k')
  · exact absurd hs (send_ne_bar k)
  · have : k = k' := send_inj k k' hs
    subst this; rfl
  · exact absurd hs (send_ne_recv k k')
  · exact absurd hs (recv_ne_bar k)
  · exact absurd hs.symm (send_ne_recv k' k)
  · have : k = k' := recv_inj k k' hs
    subst this; rfl
def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun d : Fin 3 => dutyTok ER (barCell c) 0 d)
    ∗ (bigSep Finset.univ fun k : Fin 3 => dutyTok ER (sendCell c k) 0 0)
    ∗ (bigSep Finset.univ fun k : Fin 3 => dutyTok ER (recvCell c k) 0 0))

/-- What the launch element deals device `c` (the theorem's `G`). -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_prod, bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's semaphores at zero become its cells' invariants -/

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records every device reads: every cell's invariant under its name, every cell at round 0. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem inv_send (K : Dev nD × Fin 7 → ℕ) (c : Dev nD) (k : Fin 3) :
    (bigSep Finset.univ fun ck : Dev nD × Fin 7 => (cellInv ER (sched m ρ) (K ck) (kcell ck) : sProp 𝕄))
      ⊢ cellInv ER (sched m ρ) (K (c, sendIx k)) (sendCell c k) := by
  have h := inv_at m ρ K (c, sendIx k); rw [kcell_send] at h; exact h
theorem inv_recv (K : Dev nD × Fin 7 → ℕ) (c : Dev nD) (k : Fin 3) :
    (bigSep Finset.univ fun ck : Dev nD × Fin 7 => (cellInv ER (sched m ρ) (K ck) (kcell ck) : sProp 𝕄))
      ⊢ cellInv ER (sched m ρ) (K (c, recvIx k)) (recvCell c k) := by
  have h := inv_at m ρ K (c, recvIx k); rw [kcell_recv] at h; exact h
theorem reached_send (c : Dev nD) (k : Fin 3) :
    (bigSep Finset.univ fun ck : Dev nD × Fin 7 => (reached ER (kcell ck) 0 : sProp 𝕄)) ⊢ reached ER (sendCell c k) 0 := by
  have h := reached_at (F := F) (c, sendIx k); rw [kcell_send] at h; exact h
theorem reached_recv (c : Dev nD) (k : Fin 3) :
    (bigSep Finset.univ fun ck : Dev nD × Fin 7 => (reached ER (kcell ck) 0 : sProp 𝕄)) ⊢ reached ER (recvCell c k) 0 := by
  have h := reached_at (F := F) (c, recvIx k); rw [kcell_recv] at h; exact h

/-- What stays with device `c`: the tokens of the duties IT pays, -/
def payToks (c : Dev nD) : sProp 𝕄 :=
  iprop((bigSep Finset.univ fun k : Fin 3 => dutyTok ER (barCell (peer c k)) 0 (rev k))
    ∗ (bigSep Finset.univ fun k : Fin 3 => dutyTok ER (recvCell (peer c k) k) 0 0)
    ∗ (bigSep Finset.univ fun k : Fin 3 => dutyTok ER (sendCell c k) 0 0))
/-- and its positions on its seven cells. -/
def linear (c : Dev nD) : sProp 𝕄 :=
  iprop((bigSep Finset.univ fun k : Fin 7 => atPos ER (kcell (c, k)) 0 ∅ 0) ∗ payToks c)

/-- A device's seven positions, sorted by kind. -/
theorem atPos_split (c : Dev nD) :
    (bigSep Finset.univ fun k : Fin 7 => (atPos ER (kcell (c, k)) 0 ∅ 0 : sProp 𝕄))
      ⊢ iprop(atPos ER (barCell c) 0 ∅ 0 ∗ (bigSep Finset.univ fun k : Fin 3 => atPos ER (sendCell c k) 0 ∅ 0)
          ∗ (bigSep Finset.univ fun k : Fin 3 => atPos ER (recvCell c k) 0 ∅ 0)) := by
  rw [bigSep_fin7, bigSep_fin3, bigSep_fin3]
  iintro ⟨H0, H1, H2, H3, H4, H5, H6⟩
  isplitl [H0]; · iexact H0
  isplitl [H1 H2 H3]
  · isplitl [H1]; · iexact H1
    isplitl [H2] <;> iassumption
  · isplitl [H4]; · iexact H4
    isplitl [H5] <;> iassumption

theorem ghost_intro (K : Dev nD × Fin 7 → ℕ) (c : Dev nD) : iprop(records m ρ K ∗ linear c) ⊢ G' m ρ c := by
  unfold records linear payToks G' ghost invs
  iintro ⟨⟨#HI, #HR⟩, Hat, HtB, HtV, HtS⟩
  ihave Hat' := (atPos_split (F := F) c) $$ Hat
  icases Hat' with ⟨HaB, HaS, HaV⟩
  iexists K
  isplitr
  · isplitr; · iapply (inv_at m ρ K (c, 0)); iexact HI
    isplitr; · iapply (bigSep_intro_persistent fun k _ => inv_send m ρ K c k); iexact HI
    isplitr; · iapply (bigSep_intro_persistent fun k _ => inv_recv m ρ K c k); iexact HI
    isplitr; · iapply (bigSep_intro_persistent fun k _ => inv_at m ρ K (peer c k, 0)); iexact HI
    iapply (bigSep_intro_persistent fun k _ => inv_recv m ρ K (peer c k) k); iexact HI
  isplitl [HaB]; · iexact HaB
  isplitl [HaS]; · iexact HaS
  isplitl [HaV]; · iexact HaV
  isplitr; · iapply (bigSep_intro_persistent fun k _ => reached_at (F := F) (peer c k, 0)); iexact HR
  isplitr; · iapply (bigSep_intro_persistent fun k _ => reached_recv (F := F) (peer c k) k); iexact HR
  isplitr; · iapply (bigSep_intro_persistent fun k _ => reached_send (F := F) c k); iexact HR
  isplitr; · iapply (bigSep_intro_persistent fun k _ => reached_recv (F := F) c k); iexact HR
  isplitl [HtB]; · iexact HtB
  isplitl [HtV]; · iexact HtV
  iexact HtS

/-- Device and offset to the device that offset reaches and the offset back: an involution. -/
def barE : Dev nD × Fin 3 ≃ Dev nD × Fin 3 :=
  ⟨fun p => (peer p.1 p.2, rev p.2), fun p => (peer p.1 p.2, rev p.2),
    fun p => Prod.ext (peer_peer_rev p.1 p.2) (rev_rev p.2), fun p => Prod.ext (peer_peer_rev p.1 p.2) (rev_rev p.2)⟩
/-- Device and copy number to the device that copy lands on, same number. -/
def recvE : Dev nD × Fin 3 ≃ Dev nD × Fin 3 :=
  ⟨fun p => (peer p.1 p.2, p.2), fun p => (src p.1 p.2, p.2), fun p => Prod.ext (src_peer p.1 p.2) rfl, fun p => Prod.ext (peer_src p.1 p.2) rfl⟩

/-- The tokens dealt over the mesh: the barrier token `(barCell s, d)` to the device `peer s d`, which pays it as its duty
    `rev d` there; the receive token `(recvCell s k)` to the device `src s k`; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun p : Dev nD × Fin 3 => (dutyTok ER (barCell p.1) 0 p.2 : sProp 𝕄)),
    bigSep_univ_equiv barE (fun p : Dev nD × Fin 3 => (dutyTok ER (barCell p.1) 0 p.2 : sProp 𝕄)),
    bigSep_univ_prod (fun p : Dev nD × Fin 3 => (dutyTok ER (barCell (barE p).1) 0 (barE p).2 : sProp 𝕄)),
    ← bigSep_univ_prod (fun p : Dev nD × Fin 3 => (dutyTok ER (recvCell p.1 p.2) 0 0 : sProp 𝕄)),
    bigSep_univ_equiv recvE (fun p : Dev nD × Fin 3 => (dutyTok ER (recvCell p.1 p.2) 0 0 : sProp 𝕄)),
    bigSep_univ_prod (fun p : Dev nD × Fin 3 => (dutyTok ER (recvCell (recvE p).1 (recvE p).2) 0 0 : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 7 => (atPos ER (kcell (c, k)) 0 ∅ 0 : sProp 𝕄)) payToks).symm)
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Three units on one cell are the cell's three. -/
theorem cred_three (g : GSem nD τ sig) :
    iprop(cred (tallyAt g () 1) ∗ cred (tallyAt g () 1) ∗ cred (tallyAt g () 1)) ⊢ (cred (tallyAt g () 3) : sProp 𝕄) := by
  have h : (tallyAt g () 3 : CellTallies nD τ sig Unit) = tallyAt g () 1 + (tallyAt g () 1 + tallyAt g () 1) := by
    rw [tallyAt_add, tallyAt_add]
  rw [h]
  exact (sep_mono_right (cred_add _ _).2).trans (cred_add _ _).2

/-- What the launch deals device `c` for the units the others owe its cells: every device owes its three peers' barrier
    cells a unit each and its `k`-th peer's receive cell `k` one transfer's credit, and `d ↦ peer d k` is a bijection of
    the devices; so `c` gets three units on its barrier cell and one transfer's credit on each receive cell. -/
theorem creds (c : Dev nD) :
    (Pipeline.launchCred O₀ c : sProp 𝕄)
      ⊢ iprop(cred (tallyAt (barCell c) () 3) ∗ bigSep Finset.univ fun k : Fin 3 => cred (tallyAt (recvCell c k) () N)) := by
  have e : (Pipeline.launchCred O₀ c : sProp 𝕄)
      = Pipeline.launchCred (fun d => (((((((0 : CellTallies nD τ sig Unit) + tallyAt (recvCell (peer d 2) 2) () N)
          + tallyAt (recvCell (peer d 1) 1) () N) + tallyAt (recvCell (peer d 0) 0) () N) + tallyAt (barCell (peer d 2)) () 1)
          + tallyAt (barCell (peer d 1)) () 1) + tallyAt (barCell (peer d 0)) () 1)) c := rfl
  rw [e, Pipeline.launchCred_add, Pipeline.launchCred_add, Pipeline.launchCred_add, Pipeline.launchCred_add, Pipeline.launchCred_add,
    Pipeline.launchCred_add, bigSep_fin3]
  iintro ⟨⟨⟨⟨⟨⟨-, Hr2⟩, Hr1⟩, Hr0⟩, Hb2⟩, Hb1⟩, Hb0⟩
  isplitl [Hb0 Hb1 Hb2]
  · iapply (cred_three (F := F) (barCell c))
    isplitl [Hb0]
    · iapply (Pipeline.launchCred_tallyAt (.reg barS) (fun d => peer d 0) (fun d => src d 0) (fun d => peer_src d 0) (fun d => src_peer d 0) () 1 c); iexact Hb0
    isplitl [Hb1]
    · iapply (Pipeline.launchCred_tallyAt (.reg barS) (fun d => peer d 1) (fun d => src d 1) (fun d => peer_src d 1) (fun d => src_peer d 1) () 1 c); iexact Hb1
    · iapply (Pipeline.launchCred_tallyAt (.reg barS) (fun d => peer d 2) (fun d => src d 2) (fun d => peer_src d 2) (fun d => src_peer d 2) () 1 c); iexact Hb2
  isplitl [Hr0]
  · iapply (Pipeline.launchCred_tallyAt (.dma (recvS 0)) (fun d => peer d 0) (fun d => src d 0) (fun d => peer_src d 0) (fun d => src_peer d 0) () N c); iexact Hr0
  isplitl [Hr1]
  · iapply (Pipeline.launchCred_tallyAt (.dma (recvS 1)) (fun d => peer d 1) (fun d => src d 1) (fun d => peer_src d 1) (fun d => src_peer d 1) () N c); iexact Hr1
  · iapply (Pipeline.launchCred_tallyAt (.dma (recvS 2)) (fun d => peer d 2) (fun d => src d 2) (fun d => peer_src d 2) (fun d => src_peer d 2) () N c); iexact Hr2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  rw [bigSep_fin3, bigSep_fin3]
  iintro ⟨Hr, ⟨S0, S1, S2⟩, ⟨V0, V1, V2⟩⟩
  isplitr; · iempintro
  isplitr [Hr]
  · isplitl [S0]; · iexact S0
    isplitl [S1]; · iexact S1
    isplitl [S2]; · iexact S2
    isplitl [V0]; · iexact V0
    isplitl [V1] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

/-- Each window's array after the run, as the pipeline's proof data compute it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each device's
    body obligation: every weakly fair execution of @main — the four kernels handshaking on the runtime's barrier
    semaphore, then each sending its row of column sums to the three others — terminates, and every final state has each
    window's array of each device at the contents the proof data compute. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AR.run_main' depends on axioms: [propext, Classical.choice, Quot.sound] -/
#guard_msgs in #print axioms run_main

/-- The `x` block after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds what the body left in the result's staging buffer: the one grid point writes
    window 1 back, and its block at zero offsets is the whole `[1, 256]` array. -/
theorem finalA_out (c : Dev nD) : finalA m ρ c (1 : Fin 2) = outAt m ρ c := by
  show (dats m ρ 0 c).arrAt 1 (t₀.val + 1) = _
  rw [Dat.arrAt_succ, flush0_1 t₀, if_pos rfl]
  show ((cfg0.win 1).blk t₀).view.write (Elt F) _ (outAt m ρ c) Finset.univ = outAt m ρ c
  have hz' : (fun a => win0_1.index t₀ a * main_v1.ty.shape.size a) = fun _ => 0 := funext fun a => by fin_cases a <;> decide
  exact Memref.write_access_unit_zero_univ (Elt F) main_v1 hz' (fun a => by rw [congrFun hz' a]; simp) _ _

end Cert.KernelIdeal.AR

end
-- ==== Proof.ValueSpec.lean ====
/-
  The pure mathematics of a mean over 2048 rows taken in four blocks of 512 rows, over the extended reals:
  a sum over 2048 rows is the sum over the four blocks of each block's sum over its 512 rows; four block sums
  added in the order "own block, then the blocks three, two and one places further round the ring" are the sum
  over all four blocks; and the two float literals of the programs denote 2048 and its reciprocal, so that a
  product with the one is the quotient by the other at every extended real. No program is imported.
-/
import Idealize.ShloMosaic.PureOps.Ideal.Laws
import Mathlib.Algebra.BigOperators.Fin
import Mathlib.Logic.Equiv.Fin.Basic
import Mathlib.Tactic.Abel
import Mathlib.Tactic.FinCases
import Mathlib.Tactic.NormNum

noncomputable section

open scoped BigOperators

namespace Cert.KernelIdeal.ValueSpec

open Idealize.ShloMosaic

/-- Row `k` of 2048 is row `r` of block `c` for exactly one pair `(c, r)`, `k = 512 c + r`: the sum over the rows
    is the sum over the blocks of the sums over a block's rows. -/
theorem sum_rows_split {M : Type*} [AddCommMonoid M] (f : Fin 2048 → M) :
    ∑ k : Fin 2048, f k = ∑ c : Fin 4, ∑ r : Fin 512, f ⟨c.val * 512 + r.val, by omega⟩ := by
  rw [← Equiv.sum_comp (finProdFinEquiv : Fin 4 × Fin 512 ≃ Fin 2048) f, Fintype.sum_prod_type]
  refine Finset.sum_congr rfl fun c _ => Finset.sum_congr rfl fun r _ => congrArg f (Fin.ext ?_)
  show r.val + 512 * c.val = c.val * 512 + r.val
  omega

/-- Four terms indexed by the devices of a ring of four, added starting from device `c` and going on with the
    devices three, two and one places after it, are the sum over the four devices: addition commutes. -/
theorem ring_sum {M : Type*} [AddCommMonoid M] (g : Fin 4 → M) (c d1 d2 d3 : Fin 4)
    (h1 : d1.val = (c.val + 3) % 4) (h2 : d2.val = (c.val + 2) % 4) (h3 : d3.val = (c.val + 1) % 4) :
    g c + g d1 + g d2 + g d3 = ∑ e : Fin 4, g e := by
  rw [Fin.sum_univ_four]
  fin_cases c
  · obtain rfl : d1 = 3 := Fin.ext h1
    obtain rfl : d2 = 2 := Fin.ext h2
    obtain rfl : d3 = 1 := Fin.ext h3
    show g 0 + g 3 + g 2 + g 1 = g 0 + g 1 + g 2 + g 3
    abel
  · obtain rfl : d1 = 0 := Fin.ext h1
    obtain rfl : d2 = 3 := Fin.ext h2
    obtain rfl : d3 = 2 := Fin.ext h3
    show g 1 + g 0 + g 3 + g 2 = g 0 + g 1 + g 2 + g 3
    abel
  · obtain rfl : d1 = 1 := Fin.ext h1
    obtain rfl : d2 = 0 := Fin.ext h2
    obtain rfl : d3 = 3 := Fin.ext h3
    show g 2 + g 1 + g 0 + g 3 = g 0 + g 1 + g 2 + g 3
    abel
  · obtain rfl : d1 = 2 := Fin.ext h1
    obtain rfl : d2 = 1 := Fin.ext h2
    obtain rfl : d3 = 0 := Fin.ext h3
    show g 3 + g 2 + g 1 + g 0 = g 0 + g 1 + g 2 + g 3
    abel

/-- The word `0x45000000` denotes the real 2048 (exponent field 138, significand field zero). -/
theorem ofBits_2048 : Ideal.ofBits .f32 0x45000000#32 = ((2048 : ℝ) : EReal) := by
  simp [Ideal.ofBits, Ideal.ieee, -EReal.coe_mul]; norm_num

/-- The word `0x3A000000` denotes the real 1/2048 (exponent field 116, significand field zero). -/
theorem ofBits_inv2048 : Ideal.ofBits .f32 0x3A000000#32 = ((1 / 2048 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- So the product with the one literal is the ideal quotient by the other, at the infinities too. -/
theorem mul_inv2048 (s : EReal) :
    s * Ideal.ofBits .f32 0x3A000000#32 = Ideal.div s (Ideal.ofBits .f32 0x45000000#32) := by
  rw [ofBits_2048, ofBits_inv2048, Ideal.div_coe (by norm_num)]

/-- The mean of 2048 rows from the four block sums: with `f` the column read row by row, the block sums added
    round the ring from device `c` and scaled by the reciprocal literal are zero plus the whole column's sum,
    divided by the literal 2048. -/
theorem mean_of_blocks (f : Fin 2048 → EReal) (c d1 d2 d3 : Fin 4)
    (h1 : d1.val = (c.val + 3) % 4) (h2 : d2.val = (c.val + 2) % 4) (h3 : d3.val = (c.val + 1) % 4) :
    ((((∑ r : Fin 512, f ⟨c.val * 512 + r.val, by omega⟩) + ∑ r : Fin 512, f ⟨d1.val * 512 + r.val, by omega⟩)
        + ∑ r : Fin 512, f ⟨d2.val * 512 + r.val, by omega⟩) + ∑ r : Fin 512, f ⟨d3.val * 512 + r.val, by omega⟩)
      * Ideal.ofBits .f32 0x3A000000#32
      = Ideal.div (Ideal.ofBits .f32 0x00000000#32 + ∑ k : Fin 2048, f k) (Ideal.ofBits .f32 0x45000000#32) := by
  rw [mul_inv2048, ofBits_zero, zero_add, sum_rows_split f]
  exact congrArg (Ideal.div · _)
    (ring_sum (fun e : Fin 4 => ∑ r : Fin 512, f ⟨e.val * 512 + r.val, by omega⟩) c d1 d2 d3 h1 h2 h3)

end Cert.KernelIdeal.ValueSpec

end
-- ==== Proof.ValueBridge.lean ====
/-
  The value bridge of the four-device mean over rows. Device `c` of four holds block `c` (512 rows) of a
  [2048, 256] array; its first payload is the [1, 256] vector of its block's column sums; its second payload adds
  to that vector the three vectors received from the devices three, two and one places further round the ring and
  scales the total by the literal 1/2048. Read at a column `j`, the first payload is the sum over the block's 512
  rows, a block's row `r` is row `512 c + r` of the whole array, and the reference (zero plus the sum over all
  2048 rows, divided by the literal 2048) is the mean: the two agree by the arithmetic of Proof/ValueSpec.lean.
-/
import proofs.«900955_g7700000000000956_dist_mean_ax0_shard0_i_m512_n256_v7x_i4_bf16_1_alg».proof.Proof.Gen.KernelIdeal.Skeleton
import proofs.«900955_g7700000000000956_dist_mean_ax0_shard0_i_m512_n256_v7x_i4_bf16_1_alg».proof.Proof.Gen.ReferenceIdeal.Read
import proofs.«900955_g7700000000000956_dist_mean_ax0_shard0_i_m512_n256_v7x_i4_bf16_1_alg».proof.Proof.ValueSpec
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.ValueBridge

open Idealize.ShloMosaic Idealize.ShloMosaic.ValueIdx

/-- The sum over axis 0 of a [512, 256] block, read at column `j`: the sum over the 512 rows of the block's
    element at (row, `j`). The accumulator's proof is typed as the payload spells it. -/
theorem colsum_apply (x : FVec Ideal Cert.KernelIdeal.S512x256 .f32)
    (h : Cert.KernelIdeal.S512x256.Reduces [0] Cert.KernelIdeal.S256) (hφ : FKind.Formats .f32)
    (hacc : (0x00000000#32 : BitVec 32) = 0x00000000#32) (j : Fin 256) :
    multiReduction (F := Ideal) .add [0] Cert.KernelIdeal.S256 x 0x00000000#32 h hφ hacc (ix1 j)
      = ∑ r : Fin 512, x (ix2 r j) := by
  refine (Ideal.multiReduction_add_single x 0x00000000#32 h hφ hacc (ix1 j)).trans ?_
  exact Finset.sum_congr rfl fun r _ => congrArg x (funext fun a => Fin.ext (by
    match a with | ⟨0, _⟩ => rfl | ⟨1, _⟩ => rfl))

/-- The first payload at column `j` of its one row: the block's column sum. The two casts between equal shapes
    are the identity, and the cast [256] → [1, 256] reads the vector at `j`. -/
theorem pay1_apply (x : Vec Ideal Cert.KernelIdeal.S512x256 .f32) (j : Fin 256) :
    Cert.KernelIdeal.Gen.k0_pay1 (F := Ideal) x (ix2 (0 : Fin 1) j) = ∑ r : Fin 512, x (ix2 r j) := by
  unfold Cert.KernelIdeal.Gen.k0_pay1
  simp only [shapeCast_self]
  rw [shapeCast_a_1a_apply]
  exact colsum_apply x _ _ _ j

/-- Block `c` of the whole array at (row `r`, column `j`) is the whole array at (row `512 c + r`, column `j`). -/
theorem block_apply (X : (⟨Cert.ReferenceIdeal.S2048x256, .f32⟩ : BufTy).Contents (Elt Ideal)) (c : Fin 4)
    (r : Fin 512) (j : Fin 256) :
    (Layout.block ⟨2, ![512, 256]⟩ ⟨2, ![2048, 256]⟩ 0 4 c X : Vec Ideal Cert.KernelIdeal.S512x256 .f32) (ix2 r j)
      = X (ix2 (⟨c.val * 512 + r.val, by omega⟩ : Fin 2048) j) := by
  rw [Layout.block_apply]
  exact congrArg X (funext fun a => Fin.ext (by match a with | ⟨0, _⟩ => rfl | ⟨1, _⟩ => rfl))

/-- So the first payload of block `c`, at column `j`, sums rows `512 c` … `512 c + 511` of the whole array. -/
theorem pay1_block_apply (X : (⟨Cert.ReferenceIdeal.S2048x256, .f32⟩ : BufTy).Contents (Elt Ideal)) (c : Fin 4)
    (j : Fin 256) :
    Cert.KernelIdeal.Gen.k0_pay1 (F := Ideal) (Layout.block ⟨2, ![512, 256]⟩ ⟨2, ![2048, 256]⟩ 0 4 c X) (ix2 (0 : Fin 1) j)
      = ∑ r : Fin 512, X (ix2 (⟨c.val * 512 + r.val, by omega⟩ : Fin 2048) j) := by
  rw [pay1_apply]
  exact Finset.sum_congr rfl fun r _ => block_apply X c r j

/-- The second payload at column `j`: own vector plus the three received ones (each [1, 1, 256] slot read at
    (0, 0, `j`)), times the literal. -/
theorem pay2_apply (v125 : Vec Ideal Cert.KernelIdeal.S1x256 .f32) (v126 v129 v132 : Vec Ideal Cert.KernelIdeal.S1x1x256 .f32)
    (j : Fin 256) :
    Cert.KernelIdeal.Gen.k0_pay2 (F := Ideal) v125 v126 v129 v132 (ix2 (0 : Fin 1) j)
      = (((v125 (ix2 (0 : Fin 1) j) + v126 (ix3 (0 : Fin 1) (0 : Fin 1) j)) + v129 (ix3 (0 : Fin 1) (0 : Fin 1) j))
          + v132 (ix3 (0 : Fin 1) (0 : Fin 1) j)) * Ideal.ofBits .f32 0x3A000000#32 := by
  unfold Cert.KernelIdeal.Gen.k0_pay2
  simp only [mulf_apply, addf_apply, broadcast_apply, shapeCast_1ab_ab_apply]
  rfl

/-- The reference at column `j`: zero plus the sum over all 2048 rows, divided by the literal. -/
theorem ref_apply (X : (⟨Cert.ReferenceIdeal.S2048x256, .f32⟩ : BufTy).Contents (Elt Ideal)) (j : Fin 256) :
    Cert.ReferenceIdeal.Read.val_main_v3 (F := Ideal) X (ix2 (0 : Fin 1) j)
      = Ideal.div (Ideal.ofBits .f32 0x00000000#32 + ∑ k : Fin 2048, X (ix2 k j)) (Ideal.ofBits .f32 0x45000000#32) := by
  rw [Cert.ReferenceIdeal.Read.val_main_v3_apply, Cert.ReferenceIdeal.Read.val_main_v1_apply,
    Cert.ReferenceIdeal.Read.val_main_v2_apply, Cert.ReferenceIdeal.Read.val_main_v0_apply,
    Cert.ReferenceIdeal.Read.val_main_cst_apply, Cert.ReferenceIdeal.Read.val_main_cst_0_apply]
  simp only [Ideal.hostDivf_def, Ideal.ofBits_def]
  refine congrArg (fun s => Ideal.div (_ + s) _) (Finset.sum_congr rfl fun k _ => congrArg X ?_)
  funext a
  match a with | ⟨0, _⟩ => rfl | ⟨1, _⟩ => rfl

/-- The bridge: with the four blocks named by device and the three received slots given column by column, the
    second payload is the reference's result. -/
theorem result_eq (X : (⟨Cert.ReferenceIdeal.S2048x256, .f32⟩ : BufTy).Contents (Elt Ideal)) (c d1 d2 d3 : Fin 4)
    (h1 : d1.val = (c.val + 3) % 4) (h2 : d2.val = (c.val + 2) % 4) (h3 : d3.val = (c.val + 1) % 4)
    (x0 x1 x2 x3 : Vec Ideal Cert.KernelIdeal.S512x256 .f32)
    (hx0 : x0 = Layout.block ⟨2, ![512, 256]⟩ ⟨2, ![2048, 256]⟩ 0 4 c X)
    (hx1 : x1 = Layout.block ⟨2, ![512, 256]⟩ ⟨2, ![2048, 256]⟩ 0 4 d1 X)
    (hx2 : x2 = Layout.block ⟨2, ![512, 256]⟩ ⟨2, ![2048, 256]⟩ 0 4 d2 X)
    (hx3 : x3 = Layout.block ⟨2, ![512, 256]⟩ ⟨2, ![2048, 256]⟩ 0 4 d3 X)
    (v125 : Vec Ideal Cert.KernelIdeal.S1x256 .f32) (v126 v129 v132 : Vec Ideal Cert.KernelIdeal.S1x1x256 .f32)
    (h125 : v125 = Cert.KernelIdeal.Gen.k0_pay1 (F := Ideal) x0)
    (h126 : ∀ j : Fin 256, v126 (ValueIdx.ix3 0 0 j) = Cert.KernelIdeal.Gen.k0_pay1 (F := Ideal) x1 (ValueIdx.ix2 0 j))
    (h129 : ∀ j : Fin 256, v129 (ValueIdx.ix3 0 0 j) = Cert.KernelIdeal.Gen.k0_pay1 (F := Ideal) x2 (ValueIdx.ix2 0 j))
    (h132 : ∀ j : Fin 256, v132 (ValueIdx.ix3 0 0 j) = Cert.KernelIdeal.Gen.k0_pay1 (F := Ideal) x3 (ValueIdx.ix2 0 j)) :
    Cert.KernelIdeal.Gen.k0_pay2 (F := Ideal) v125 v126 v129 v132 = Cert.ReferenceIdeal.Read.val_main_v3 (F := Ideal) X := by
  funext i
  obtain ⟨u, j, rfl⟩ : ∃ (u : Fin 1) (j : Fin 256), i = ix2 u j := ⟨i 0, i 1, eq_ix2 i⟩
  obtain rfl : u = 0 := Subsingleton.elim _ _
  rw [pay2_apply, ref_apply, h126 j, h129 j, h132 j, h125, hx0, hx1, hx2, hx3,
    pay1_block_apply, pay1_block_apply, pay1_block_apply, pay1_block_apply]
  exact ValueSpec.mean_of_blocks (fun k => X (ix2 k j)) c d1 d2 d3 h1 h2 h3

end Cert.KernelIdeal.ValueBridge

end
-- ==== Proof.ValueJoin.lean ====
/-
  The value of the kernel's result on a device, joined to the reference's. The staged block of a whole-array
  window is the array itself, so a device's block of `x` is its argument; the result on device `c` is the second
  payload of its own column sums and the three landed rows, which are the column sums of the devices one, two and
  three places before it; with every device's argument the matching block of one `[2048, 256]` array, that is the
  reference's mean over all rows.
-/
import proofs.«900955_g7700000000000956_dist_mean_ax0_shard0_i_m512_n256_v7x_i4_bf16_1_alg».proof.Proof.Bufs
import proofs.«900955_g7700000000000956_dist_mean_ax0_shard0_i_m512_n256_v7x_i4_bf16_1_alg».proof.Proof.ValueBridge

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The staged block is the argument -/

section Staged

variable {F : FTy → Type} [FloatOps F]
variable (m : (ℓ : Loc nD τ sig) → Buf (Elt F) ℓ) (ρ : Dev nD → PrngReg)

/-- The window of `x` has one block, the whole array at zero offsets: reading the array through it reads the array. -/
theorem xstg_eq (c : Dev nD) : xstg m ρ c = m ((c : Thread nD τ).loc main_arg0) := by
  have hz : (fun a : Fin S512x256.rank => 0 * S512x256.size a) = fun _ => 0 := funext fun a => Nat.zero_mul _
  exact Memref.read_access_unit_zero (Elt F) main_arg0 hz _ _

end Staged

/-! ## The devices before `c`, by number -/

theorem src_val_zero (c : Dev nD) : (src c 0).val = (c.val + 3) % 4 := by revert c; decide
theorem src_val_one (c : Dev nD) : (src c 1).val = (c.val + 2) % 4 := by revert c; decide
theorem src_val_two (c : Dev nD) : (src c 2).val = (c.val + 1) % 4 := by revert c; decide

/-! ## The result is the reference's -/

/-- With device `c`'s argument block `c` of the array `X`, the result on every device is the reference's result on `X`. -/
theorem outAt_eq_ref (m : (ℓ : Loc nD τ sig) → Buf (Elt Ideal) ℓ) (ρ : Dev nD → PrngReg)
    (X : (⟨Cert.ReferenceIdeal.S2048x256, .f32⟩ : BufTy).Contents (Elt Ideal))
    (hX : ∀ c : Dev nD, m ((c : Thread nD τ).loc main_arg0) = Layout.block ⟨2, ![512, 256]⟩ ⟨2, ![2048, 256]⟩ 0 4 c X)
    (c : Dev nD) :
    outAt m ρ c = Cert.ReferenceIdeal.Read.val_main_v3 (F := Ideal) X := by
  unfold outAt
  exact ValueBridge.result_eq X c (src c 0) (src c 1) (src c 2) (src_val_zero c) (src_val_one c) (src_val_two c)
    (xstg m ρ c) (xstg m ρ (src c 0)) (xstg m ρ (src c 1)) (xstg m ρ (src c 2))
    ((xstg_eq m ρ c).trans (hX c)) ((xstg_eq m ρ (src c 0)).trans (hX (src c 0)))
    ((xstg_eq m ρ (src c 1)).trans (hX (src c 1))) ((xstg_eq m ρ (src c 2)).trans (hX (src c 2)))
    _ _ _ _ rfl (fun j => read_slot m ρ c 0 j) (fun j => read_slot m ρ c 1 j) (fun j => read_slot m ρ c 2 j)

/-- info: 'Cert.KernelIdeal.AR.outAt_eq_ref' depends on axioms: [propext, Classical.choice, Quot.sound] -/
#guard_msgs in
#print axioms outAt_eq_ref

end Cert.KernelIdeal.AR

end
-- ==== Proof.BitsMesh.lean ====
/-
  The mesh of four devices and the kernel's cells. Device `c` adds its three peers `c+1, c+2, c+3` (mod 4):
  its `k`-th signal and its `k`-th copy (`k = 0, 1, 2`) address `peer c k = c + k + 1`, and the copy that lands in
  `c`'s own slot `k` comes from `src c k = c - (k + 1)`. Per device there are seven semaphore cells: the barrier
  semaphore of the collective, three send semaphores and three receive semaphores, one per copy.
-/
import proofs.«900955_g7700000000000956_dist_mean_ax0_shard0_i_m512_n256_v7x_i4_bf16_1_alg».proof.Proof.Gen.Kernel
import proofs.«900955_g7700000000000956_dist_mean_ax0_shard0_i_m512_n256_v7x_i4_bf16_1_alg».proof.Proof.Gen.Kernel.Skeleton
import proofs.«900955_g7700000000000956_dist_mean_ax0_shard0_i_m512_n256_v7x_i4_bf16_1_alg».proof.Proof.Gen.Kernel.Launch
import proofs.«900955_g7700000000000956_dist_mean_ax0_shard0_i_m512_n256_v7x_i4_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the rounds' copy (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device `k + 1` places after `c`. -/
def peer (c : Dev nD) (k : Fin 3) : Dev nD := ⟨(c.val + k.val + 1) % 4, Nat.mod_lt _ (by decide)⟩
/-- The device `k + 1` places before `c`: the one whose `k`-th copy lands on `c`. -/
def src (c : Dev nD) (k : Fin 3) : Dev nD := ⟨(c.val + 3 - k.val) % 4, Nat.mod_lt _ (by decide)⟩
/-- The signal that answers copy `k`: `peer c k` is reached from the other side by the offset `rev k`. -/
def rev (k : Fin 3) : Fin 3 := ⟨2 - k.val, by omega⟩

theorem src_peer (c : Dev nD) (k : Fin 3) : src (peer c k) k = c := by revert c k; decide
theorem peer_src (c : Dev nD) (k : Fin 3) : peer (src c k) k = c := by revert c k; decide
theorem peer_peer_rev (c : Dev nD) (k : Fin 3) : peer (peer c k) (rev k) = c := by revert c k; decide
theorem peer_rev_peer (c : Dev nD) (k : Fin 3) : peer (peer c (rev k)) k = c := by revert c k; decide
theorem src_eq_peer_rev (c : Dev nD) (k : Fin 3) : src c k = peer c (rev k) := by revert c k; decide
theorem rev_rev (k : Fin 3) : rev (rev k) = k := by revert k; decide
theorem peer_ne (c : Dev nD) (k : Fin 3) : peer c k ≠ c := by revert c k; decide
theorem peer_inj (c : Dev nD) (j k : Fin 3) (h : peer c j = peer c k) : j = k := by revert c j k; decide

def peerEquiv (k : Fin 3) : Dev nD ≃ Dev nD := ⟨fun c => peer c k, fun c => src c k, fun c => src_peer c k, fun c => peer_src c k⟩

/-- The kernel's `device_id` chains: the three signals and the three copies name `c + 1`, `c + 2`, `c + 3`. -/
theorem k0_dev1_eq (c : Dev nD) : k0_dev1 c = (peer c 0).val := by revert c; decide +kernel
theorem k0_dev2_eq (c : Dev nD) : k0_dev2 c = (peer c 1).val := by revert c; decide +kernel
theorem k0_dev3_eq (c : Dev nD) : k0_dev3 c = (peer c 2).val := by revert c; decide +kernel
theorem k0_dev4_eq (c : Dev nD) : k0_dev4 c = (peer c 0).val := by revert c; decide +kernel
theorem k0_dev5_eq (c : Dev nD) : k0_dev5 c = (peer c 1).val := by revert c; decide +kernel
theorem k0_dev6_eq (c : Dev nD) : k0_dev6 c = (peer c 2).val := by revert c; decide +kernel
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## The memrefs -/

/-- The staged block of `x`, the staged result, the device's own column sums, the three landing slots. -/
abbrev xM : Memref sig .tc .vmem S512x256 .f32 := Memref.whole cc0_stg0_0
abbrev oM : Memref sig .tc .vmem S1x256 .f32 := Memref.whole cc0_stg1_0
abbrev lM : Memref sig .tc .vmem S1x256 .f32 := Memref.whole cc0_scratch0
abbrev cM : Memref sig .tc .vmem S3x1x256 .f32 := Memref.whole cc0_scratch1

theorem slot_inb (k : Fin 3) : ∀ a, (![k.val, 0, 0] : Fin 3 → Nat) a + S1x1x256.size a ≤ S3x1x256.size a := by revert k; decide

/-- The rectangle of slot `k`: row `k` of the `[3, 1, 256]` landing buffer, a `[1, 1, 256]` block. -/
abbrev slotR (k : Fin 3) : Rect S3x1x256 := Rect.unit (s := S3x1x256) ![k.val, 0, 0] S1x1x256.size (slot_inb k)

/-- Slot `k` of the landing buffer, as the copies and their waits name it: the slice squeezed to `[1, 256]`. -/
abbrev slotM (k : Fin 3) : Memref sig .tc .vmem S1x256 .f32 :=
  (cM.slice (slotR k) (fun _ => rfl)).squeeze S1x256 squeezes_S1x1x256_S1x256

/-! ## The semaphores and the cells -/

abbrev barS : Sem sig := (SemArray.scalar (sig.barrier 0 rfl) : Sems sig S_).sem

theorem sem_inb (k : Fin 3) : ∀ a, (![k.val] : Fin 1 → Nat) a + S1.size a ≤ S3.size a := by revert k; decide

abbrev sendS (k : Fin 3) : DmaSem sig := ((cc0_scratch2.slice (Rect.unit (s := S3) ![k.val] S1.size (sem_inb k))).squeeze S_ squeezes_S1_S_).sem
abbrev recvS (k : Fin 3) : DmaSem sig := ((cc0_scratch3.slice (Rect.unit (s := S3) ![k.val] S1.size (sem_inb k))).squeeze S_ squeezes_S1_S_).sem

theorem sendS_val (k : Fin 3) : (sendS k).val = 2 + k.val := by revert k; decide
theorem recvS_val (k : Fin 3) : (recvS k).val = 5 + k.val := by revert k; decide

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's OWN (scoped) semaphores, as the launch indexes them: the three send, the three receive; -/
abbrev osem : Fin 6 → SemLoc sig := fun | 0 => .dma (sendS 0) | 1 => .dma (sendS 1) | 2 => .dma (sendS 2) | 3 => .dma (recvS 0) | 4 => .dma (recvS 1) | 5 => .dma (recvS 2)
/-- all seven, as this proof indexes them: the barrier, the sends, the receives. -/
abbrev csem : Fin 7 → SemLoc sig := fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
abbrev sendIx (k : Fin 3) : Fin 7 := ⟨1 + k.val, by omega⟩
abbrev recvIx (k : Fin 3) : Fin 7 := ⟨4 + k.val, by omega⟩
theorem kcell_send (c : Dev nD) (k : Fin 3) : kcell (c, sendIx k) = sendCell c k := by revert c k; decide
theorem kcell_recv (c : Dev nD) (k : Fin 3) : kcell (c, recvIx k) = recvCell c k := by revert c k; decide

/-- The credit of one `[1, 256]` transfer. -/
abbrev N : ℕ := (lM : Memref sig .tc .vmem S1x256 .f32).view.dmaCredit
theorem N_pos : 0 < N := View.dmaCredit_pos _ (by decide)
theorem slot_amount (k : Fin 3) (sm : DmaSem sig) : (slotM k).view.amount (.dma sm) = N := by revert k sm; decide

/-! ## Contents -/

/-- Device `c`'s block of `x`, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s column sums of its block: the `[1, 256]` row it stores and sends. -/
def lsum (c : Dev nD) : (cc0_scratch0 : Ref sig .tc).ty.Contents (Elt F) := k0_pay1 (xstg m ρ c)

/-- Device `c`'s landing buffer once the three copies have landed: row `k` holds the column sums of `src c k`. -/
def landed (c : Dev nD) : (cc0_scratch1 : Ref sig .tc).ty.Contents (Elt F) :=
  fun i => lsum m ρ (src c ⟨(i 0).val, (i 0).isLt⟩) (fun a => match a with
    | ⟨0, _⟩ => ⟨(i 1).val, (i 1).isLt⟩
    | ⟨1, _⟩ => ⟨(i 2).val, (i 2).isLt⟩)

/-- The kernel's result on device `c`: its own sums plus the three landed rows, scaled. -/
def outAt (c : Dev nD) : (cc0_stg1_0 : Ref sig .tc).ty.Contents (Elt F) :=
  k0_pay2 (lsum m ρ c) ((cM : Memref sig .tc .vmem S3x1x256 .f32).view.readAt (Elt F) (slotR 0).toLoadRect (landed m ρ c))
    ((cM : Memref sig .tc .vmem S3x1x256 .f32).view.readAt (Elt F) (slotR 1).toLoadRect (landed m ρ c))
    ((cM : Memref sig .tc .vmem S3x1x256 .f32).view.readAt (Elt F) (slotR 2).toLoadRect (landed m ρ c))

/-- Slot `k` of device `c`'s landing buffer, held whole at contents `f`; -/
def slotAny (c : Dev nD) (k : Fin 3) (f : Buf (Elt F) ((slotM k).view.loc (c : Thread nD τ))) : sProp 𝕄 :=
  (slotM k).view.loc (c : Thread nD τ) ↦[(slotM k).view.set]{fullShare} f
/-- at the landed contents; -/
def slotPts (c : Dev nD) (k : Fin 3) : sProp 𝕄 := slotAny c k (landed m ρ c)
/-- a share of the device's own sums; -/
def locPts (c : Dev nD) (q : PosShare TreeShare) (f : Buf (Elt F) ((lM : Memref sig .tc .vmem S1x256 .f32).view.loc (c : Thread nD τ))) : sProp 𝕄 :=
  (lM : Memref sig .tc .vmem S1x256 .f32).view.loc (c : Thread nD τ) ↦[(lM : Memref sig .tc .vmem S1x256 .f32).view.set]{q} f

omit [FloatOps F] in
instance slotAny_storable (c : Dev nD) (k : Fin 3) (f) : BI.Storable (upEmb : UEmb _ 𝕄) (slotAny (F := F) c k f) := by unfold slotAny; infer_instance
instance slotPts_storable (c : Dev nD) (k : Fin 3) : BI.Storable (upEmb : UEmb _ 𝕄) (slotPts (F := F) m ρ c k) := by unfold slotPts; infer_instance
omit [FloatOps F] in
instance locPts_storable (c : Dev nD) (q) (f) : BI.Storable (upEmb : UEmb _ 𝕄) (locPts (F := F) c q f) := by unfold locPts; infer_instance

end Cert.Kernel.AR

end
-- ==== Proof.BitsSched.lean ====
/-
  The protocol as a schedule of rounds. Every cell has ONE round. A device's barrier cell has three duties of one
  unit each: duty `d` is paid by `peer c d` and hands `c` row `d` of that device's landing buffer — the destination of
  `c`'s `d`-th copy — with the fact that the row's receive cell is at its first round. Send cell `k` has one duty, paid by
  the device's own `k`-th copy once the source is read: it gives back the share of the device's sums the copy read
  from. Receive cell `k` has one duty, paid by the copy of `src c k` once it has landed: row `k` at the landed contents.
-/
import proofs.«900955_g7700000000000956_dist_mean_ax0_shard0_i_m512_n256_v7x_i4_bf16_1_alg».proof.Proof.Gen.Kernel
import proofs.«900955_g7700000000000956_dist_mean_ax0_shard0_i_m512_n256_v7x_i4_bf16_1_alg».proof.Proof.Gen.Kernel.Skeleton
import proofs.«900955_g7700000000000956_dist_mean_ax0_shard0_i_m512_n256_v7x_i4_bf16_1_alg».proof.Proof.Gen.Kernel.Launch
import proofs.«900955_g7700000000000956_dist_mean_ax0_shard0_i_m512_n256_v7x_i4_bf16_1_alg».proof.Proof.Gen.Kernel.Points
import Idealize.ShloMosaic.Lib.Pipeline.Launch
import Idealize.ShloMosaic.Lib.Pipeline.Kit
import Idealize.ShloMosaic.Lib.Tactic
import proofs.«900955_g7700000000000956_dist_mean_ax0_shard0_i_m512_n256_v7x_i4_bf16_1_alg».proof.Proof.BitsMesh

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which semaphore a location is -/

def sendK (sm : SemLoc sig) : Option (Fin 3) :=
  if sm = .dma (sendS 0) then some 0 else if sm = .dma (sendS 1) then some 1 else if sm = .dma (sendS 2) then some 2 else none
def recvK (sm : SemLoc sig) : Option (Fin 3) :=
  if sm = .dma (recvS 0) then some 0 else if sm = .dma (recvS 1) then some 1 else if sm = .dma (recvS 2) then some 2 else none

theorem sendK_send (k : Fin 3) : sendK (.dma (sendS k)) = some k := by revert k; decide
theorem recvK_recv (k : Fin 3) : recvK (.dma (recvS k)) = some k := by revert k; decide
theorem sendK_recv (k : Fin 3) : sendK (.dma (recvS k)) = none := by revert k; decide
theorem recvK_send (k : Fin 3) : recvK (.dma (sendS k)) = none := by revert k; decide
theorem sendK_bar : sendK (.reg barS) = none := by decide
theorem recvK_bar : recvK (.reg barS) = none := by decide
theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h
theorem send_ne_recv (j k : Fin 3) : (SemLoc.dma (sendS j) : SemLoc sig) ≠ .dma (recvS k) := by revert j k; decide
theorem send_inj (j k : Fin 3) (h : (SemLoc.dma (sendS j) : SemLoc sig) = .dma (sendS k)) : j = k := by revert j k; decide
theorem recv_inj (j k : Fin 3) (h : (SemLoc.dma (recvS j) : SemLoc sig) = .dma (recvS k)) : j = k := by revert j k; decide

/-! ## The shares of a device's own sums: one per copy, one kept for the device's own load -/

def shareOf : Fin 3 → PosShare TreeShare
  | 0 => fullShare.left.left
  | 1 => fullShare.left.right
  | 2 => fullShare.right.left
abbrev shareKept : PosShare TreeShare := fullShare.right.right

/-! ## The payloads -/

/-- Duty `d` of `c`'s barrier cell, paid by `peer c d`: that device's row `d`, and its receive cell `d` at round 0. -/
def barPay (c : Dev nD) (d : Fin 3) : sProp 𝕄 := iprop((∃ f, slotAny (peer c d) d f) ∗ reached ER (recvCell (peer c d) d) 0)
def recvPay (c : Dev nD) (k : Fin 3) : sProp 𝕄 := slotPts m ρ c k
def sendPay (c : Dev nD) (k : Fin 3) : sProp 𝕄 := locPts c (shareOf k) (lsum m ρ c)

/-! ## The schedule -/

def sched : Rounds.Schedule (GSem nD τ sig) (Fin 3) 𝕄 where
  duties g r :=
    if r = 0 ∧ g.1.2 = .tc then
      (if g.2 = .reg barS then Finset.univ else if (sendK g.2).isSome ∨ (recvK g.2).isSome then {0} else ∅)
    else ∅
  unitless _ := False
  amount g _ _ := if g.2 = .reg barS then 1 else N
  payload g _ d :=
    if g.2 = .reg barS then barPay g.1.1 d
    else match recvK g.2 with
      | some k => recvPay m ρ g.1.1 k
      | none => match sendK g.2 with
        | some k => sendPay m ρ g.1.1 k
        | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else match recvK g.2 with
      | some k => recvPay m ρ g.1.1 k
      | none => match sendK g.2 with
        | some k => sendPay m ρ g.1.1 k
        | none => iprop(emp))
  unfold barPay recvPay sendPay
  (repeat' split) <;> infer_instance

section Sched
variable (c : Dev nD) (k : Fin 3)

theorem duties_bar : (sched (F := F) m ρ).duties (barCell c) 0 = Finset.univ := by
  dsimp only [sched]; rw [if_pos ⟨rfl, rfl⟩, if_pos rfl]
theorem duties_send : (sched (F := F) m ρ).duties (sendCell c k) 0 = {0} := by
  dsimp only [sched]; rw [if_pos ⟨rfl, rfl⟩, if_neg (send_ne_bar k), if_pos (Or.inl (by rw [sendK_send]; rfl))]
theorem duties_recv : (sched (F := F) m ρ).duties (recvCell c k) 0 = {0} := by
  dsimp only [sched]; rw [if_pos ⟨rfl, rfl⟩, if_neg (recv_ne_bar k), if_pos (Or.inr (by rw [recvK_recv]; rfl))]
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := by dsimp only [sched]; exact if_pos rfl
theorem amount_send (d : Fin 3) : (sched (F := F) m ρ).amount (sendCell c k) 0 d = N := by dsimp only [sched]; exact if_neg (send_ne_bar k)
theorem amount_recv (d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c k) 0 = N := by
  unfold Schedule.expect Schedule.amountOf; rw [duties_send, Finset.sum_singleton, amount_send]
theorem expect_recv : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_send (d : Fin 3) : (sched (F := F) m ρ).payload (sendCell c k) 0 d = sendPay m ρ c k := by
  dsimp only [sched]; rw [if_neg (send_ne_bar k), recvK_send, sendK_send]
theorem payload_recv (d : Fin 3) : (sched (F := F) m ρ).payload (recvCell c k) 0 d = recvPay m ρ c k := by
  dsimp only [sched]; rw [if_neg (recv_ne_bar k), recvK_recv]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three rows the device's copies will write. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each device owes at launch, in the order it pays; the levels -/

/-- Before copy 2, copy 1, copy 0 (that is: at the barrier wait); before signal 2, signal 1, signal 0 (at launch). -/
def Oc5 (c : Dev nD) : CellTallies nD τ sig Unit := 0 + tallyAt (recvCell (peer c 2) 2) () N
def Oc4 (c : Dev nD) : CellTallies nD τ sig Unit := Oc5 c + tallyAt (recvCell (peer c 1) 1) () N
def Oc3 (c : Dev nD) : CellTallies nD τ sig Unit := Oc4 c + tallyAt (recvCell (peer c 0) 0) () N
def Oc2 (c : Dev nD) : CellTallies nD τ sig Unit := Oc3 c + tallyAt (barCell (peer c 2)) () 1
def Oc1 (c : Dev nD) : CellTallies nD τ sig Unit := Oc2 c + tallyAt (barCell (peer c 1)) () 1
def O₀ (c : Dev nD) : CellTallies nD τ sig Unit := Oc1 c + tallyAt (barCell (peer c 0)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvK g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (k : Fin 3) (u : Unit) : lv (recvCell c k) u = 2 := by
  dsimp only [lv]; rw [if_neg (recv_ne_bar k), if_pos (by rw [recvK_recv]; rfl)]

theorem Oc3_pos {c : Dev nD} {g : GSem nD τ sig} {u : Unit} (h : 0 < Oc3 c g u) : ∃ k, g = recvCell (peer c k) k := by
  unfold Oc3 Oc4 Oc5 at h
  simp only [Pi.add_apply, Finsupp.add_apply, Pi.zero_apply, Finsupp.zero_apply, tallyAt_apply, Nat.zero_add] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k, g = recvCell (peer c k) k) ∨ ∃ k, g = barCell (peer c k) := by
  by_cases h3 : 0 < Oc3 c g u
  · exact Or.inl (Oc3_pos h3)
  · refine Or.inr ?_
    unfold O₀ Oc1 Oc2 at h
    simp only [Pi.add_apply, Finsupp.add_apply, tallyAt_apply] at h
    by_contra hn
    rw [not_exists] at hn
    rw [if_neg (fun h' => hn 2 h'.1), if_neg (fun h' => hn 1 h'.1), if_neg (fun h' => hn 0 h'.1)] at h
    omega

/-- A wait on a staging or send semaphore, owing everything or nothing. -/
theorem mayWait_low (c : Dev nD) (q : DmaSem sig) (hq : recvK (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [if_neg (fun h => by cases h), hq]; rfl)
      (fun g u hg => by
        rcases O₀_pos hg with ⟨k, rfl⟩ | ⟨k, rfl⟩
        · rw [lv_recv]; decide
        · rw [lv_bar]; decide)
  · rw [MayWait_zero]; iintro -; iempintro

/-- At its barrier wait a device owes its three copies' receive credits only: receive cells, above its barrier cell. -/
theorem mayWait_bar (c : Dev nD) :
    (levAts L lv : sProp 𝕄) ⊢ MayWait (c : Thread nD τ) (.reg barS) () (Oc3 c) :=
  MayOwe.of_cut (L := L) (lev := lv) 1 (fun p hp => by rw [Finset.mem_singleton.mp hp, L_tc]; exact Finset.mem_singleton_self _)
    (fun g u hg => by obtain ⟨k, rfl⟩ := Oc3_pos hg; rw [L_tc]; exact Finset.mem_singleton_self _)
    (fun p hp => by rw [Finset.mem_singleton.mp hp]; exact le_of_eq (lv_bar c ()))
    (fun g u hg => by obtain ⟨k, rfl⟩ := Oc3_pos hg; rw [lv_recv]; decide)

end Cert.Kernel.AR

end
-- ==== Proof.BitsGhost.lean ====
/-
  What a device's body starts from and ends with, and the pipeline's proof data: the interface between the body's
  proof and the launch.
-/
import proofs.«900955_g7700000000000956_dist_mean_ax0_shard0_i_m512_n256_v7x_i4_bf16_1_alg».proof.Proof.Gen.Kernel
import proofs.«900955_g7700000000000956_dist_mean_ax0_shard0_i_m512_n256_v7x_i4_bf16_1_alg».proof.Proof.Gen.Kernel.Skeleton
import proofs.«900955_g7700000000000956_dist_mean_ax0_shard0_i_m512_n256_v7x_i4_bf16_1_alg».proof.Proof.Gen.Kernel.Launch
import proofs.«900955_g7700000000000956_dist_mean_ax0_shard0_i_m512_n256_v7x_i4_bf16_1_alg».proof.Proof.Gen.Kernel.Points
import Idealize.ShloMosaic.Lib.Pipeline.Launch
import Idealize.ShloMosaic.Lib.Pipeline.Kit
import Idealize.ShloMosaic.Lib.Tactic
import proofs.«900955_g7700000000000956_dist_mean_ax0_shard0_i_m512_n256_v7x_i4_bf16_1_alg».proof.Proof.BitsSched

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The cells' invariants device `c`'s body opens, under the names `K` the launch allocated them at: its own seven, its
    three peers' barrier cells (its signals) and, of peer `k`, receive cell `k` (its `k`-th copy). -/
def invs (K : Dev nD × Fin 7 → ℕ) (c : Dev nD) : sProp 𝕄 :=
  iprop(cellInv ER (sched m ρ) (K (c, 0)) (barCell c)
    ∗ (bigSep Finset.univ fun k : Fin 3 => cellInv ER (sched m ρ) (K (c, sendIx k)) (sendCell c k))
    ∗ (bigSep Finset.univ fun k : Fin 3 => cellInv ER (sched m ρ) (K (c, recvIx k)) (recvCell c k))
    ∗ (bigSep Finset.univ fun k : Fin 3 => cellInv ER (sched m ρ) (K (peer c k, 0)) (barCell (peer c k)))
    ∗ (bigSep Finset.univ fun k : Fin 3 => cellInv ER (sched m ρ) (K (peer c k, recvIx k)) (recvCell (peer c k) k)))

instance invs_persistent (K : Dev nD × Fin 7 → ℕ) (c : Dev nD) : BI.Persistent (invs m ρ K c) := by unfold invs; infer_instance

/-- The rounds' ghost state device `c` starts from: the invariants; its positions at round 0 of its seven cells; the
    reached-marks of the cells it pays and of its own send and receive cells; the nine duty tokens it pays with — of peer
    `k`'s barrier cell the duty `rev k` (the one `c` is the payer of), of peer `k`'s receive cell `k`, of its own send cells. -/
def ghost (K : Dev nD × Fin 7 → ℕ) (c : Dev nD) : sProp 𝕄 :=
  iprop(invs m ρ K c
    ∗ atPos ER (barCell c) 0 ∅ 0
    ∗ (bigSep Finset.univ fun k : Fin 3 => atPos ER (sendCell c k) 0 ∅ 0)
    ∗ (bigSep Finset.univ fun k : Fin 3 => atPos ER (recvCell c k) 0 ∅ 0)
    ∗ (bigSep Finset.univ fun k : Fin 3 => reached ER (barCell (peer c k)) 0)
    ∗ (bigSep Finset.univ fun k : Fin 3 => reached ER (recvCell (peer c k) k) 0)
    ∗ (bigSep Finset.univ fun k : Fin 3 => reached ER (sendCell c k) 0)
    ∗ (bigSep Finset.univ fun k : Fin 3 => reached ER (recvCell c k) 0)
    ∗ (bigSep Finset.univ fun k : Fin 3 => dutyTok ER (barCell (peer c k)) 0 (rev k))
    ∗ (bigSep Finset.univ fun k : Fin 3 => dutyTok ER (recvCell (peer c k) k) 0 0)
    ∗ (bigSep Finset.univ fun k : Fin 3 => dutyTok ER (sendCell c k) 0 0))

/-- What device `c`'s body starts from: that at some names, its credit tokens (its barrier's three units, its three receive
    cells' credits) and the level facts. -/
def start (c : Dev nD) : sProp 𝕄 :=
  iprop((∃ K, ghost m ρ K c) ∗ cred (tallyAt (barCell c) () 3)
    ∗ (bigSep Finset.univ fun k : Fin 3 => cred (tallyAt (recvCell c k) () N)) ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers, and the six OWN cells at zero, closed (the barrier cell is the runtime's). -/
def Φ₁ (c : Dev nD) : sProp 𝕄 :=
  iprop(scratch c ∗ (bigSep Finset.univ fun k : Fin 3 => semVal (sendCell c k) 0) ∗ (bigSep Finset.univ fun k : Fin 3 => semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.AR

end
-- ==== Proof.BitsBufs.lean ====
/-
  The landing buffer of one device, row by row. The `[3, 1, 256]` buffer is the disjoint union of its three rows;
  row `k` is what the `k`-th remote copy writes through and what the `k`-th vector load reads. Stated here: the rows'
  element sets, the buffer cut into its rows and put together again, the contents a copy leaves in a row, and the
  value a load of a row reads.
-/
import proofs.«900955_g7700000000000956_dist_mean_ax0_shard0_i_m512_n256_v7x_i4_bf16_1_alg».proof.Proof.BitsMesh
import Idealize.ShloMosaic.Lib.Pipeline.Value
import Idealize.ShloMosaic.Lib.ValueIdx

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The rows' element sets -/

/-- Row `k`'s elements are those of its rectangle: squeezing keeps the elements, the slice of the whole buffer has the
    rectangle's. -/
theorem slot_set_eq (k : Fin 3) : (slotM k).view.set = (slotR k).set := by
  show (((View.whole cc0_scratch1).slice (slotR k)).reshape S1x256 _).set = _
  rw [View.set_reshape, View.set_slice_whole]

/-- An element of the buffer lies in row `k` exactly when its leading coordinate is `k`. -/
theorem mem_slot_set (k : Fin 3) (i : S3x1x256.Idx) : i ∈ (slotM k).view.set ↔ (i 0).val = k.val := by
  rw [slot_set_eq, Rect.mem_set_unit]
  constructor
  · intro h
    have h0 : k.val ≤ (i 0).val ∧ (i 0).val < k.val + 1 := h 0
    omega
  · intro h a
    match a with
    | ⟨0, _⟩ => exact (show k.val ≤ (i 0).val ∧ (i 0).val < k.val + 1 by omega)
    | ⟨1, _⟩ => exact (show 0 ≤ (i 1).val ∧ (i 1).val < 0 + 1 from ⟨Nat.zero_le _, by have := (i 1).isLt; exact (Nat.zero_add 1).symm ▸ this⟩)
    | ⟨2, _⟩ => exact (show 0 ≤ (i 2).val ∧ (i 2).val < 0 + 256 from ⟨Nat.zero_le _, by have := (i 2).isLt; exact (Nat.zero_add 256).symm ▸ this⟩)

/-! ## Where a row's index sits in the buffer, and what the landed contents hold there -/

/-- Column `j` of row `k`, as the squeezed `[1, 256]` view names it, is element `(k, 0, j)` of the buffer. -/
theorem slot_emb (k : Fin 3) (j : Fin 256) :
    (slotM k).view.emb (ix2 (0 : Fin 1) j) = ix3 k (0 : Fin 1) j := by
  show (slotR k).emb (Shape.reshapeEquiv (s := S1x1x256) (s' := S1x256) _ (ix2 (0 : Fin 1) j)) = ix3 k (0 : Fin 1) j
  rw [Shape.reshapeEquiv_eq_of_rowMajor (s := S1x1x256) (s' := S1x256) _ (y := ix3 (0 : Fin 1) (0 : Fin 1) j)
    (by rw [Shape.rowMajor_val_three, Shape.rowMajor_val_two]; rfl)]
  funext a
  apply Fin.ext
  match a with
  | ⟨0, _⟩ => exact (show k.val + 1 * 0 = k.val by omega)
  | ⟨1, _⟩ => exact (show 0 + 1 * 0 = 0 by omega)
  | ⟨2, _⟩ => exact (show 0 + 1 * j.val = j.val by omega)

/-- Every index of a `[1, 256]` view is a column of its one row. -/
theorem eq_ix2_zero (y : S1x256.Idx) : y = ix2 (0 : Fin 1) (y 1) := by
  funext a
  match a with
  | ⟨0, _⟩ => exact Subsingleton.elim (α := Fin 1) _ _
  | ⟨1, _⟩ => rfl

/-- The landed contents at `(k, 0, j)`: column `j` of the sums of the device `k + 1` places before. -/
theorem landed_row (c : Dev nD) (k : Fin 3) (j : Fin 256) :
    landed m ρ c (ix3 k (0 : Fin 1) j) = lsum m ρ (src c k) (ix2 (0 : Fin 1) j) := by
  unfold landed
  exact congrArg (lsum m ρ (src c k)) (funext fun a => match a with | ⟨0, _⟩ => rfl | ⟨1, _⟩ => rfl)

/-! ## What a copy leaves in a row -/

/-- Device `c`'s `k`-th copy writes its whole row of sums through row `k` of device `peer c k`: on that row's elements
    the buffer then holds the landed contents (the device `k + 1` places before `peer c k` is `c`). -/
theorem land_slot (c : Dev nD) (k : Fin 3) (fd : Buf (Elt F) ((slotM k).view.loc (peer c k : Thread nD τ))) :
    (((slotM k).view.loc (peer c k : Thread nD τ)) ↦[(slotM k).view.set]{fullShare}
        ((slotM k).view.write (Elt F) fd ((lM : Memref sig .tc .vmem S1x256 .f32).view.read (Elt F) (lsum m ρ c)) Finset.univ) : sProp 𝕄)
      ⊢ slotPts m ρ (peer c k) k := by
  unfold slotPts slotAny
  refine Entails.of_eq (pointsTo_congr fun i hi => ?_)
  obtain ⟨y, rfl⟩ := View.exists_emb_of_mem_set _ hi
  obtain ⟨j, rfl⟩ : ∃ j : Fin 256, y = ix2 (0 : Fin 1) j := ⟨y 1, eq_ix2_zero y⟩
  rw [View.write_emb_of_mem _ _ (Finset.mem_univ _), slot_emb, landed_row, src_peer]
  exact cast_eq _ _

/-! ## What a load of a row reads -/

/-- The `[1, 1, 256]` index `(0, 0, j)` of the load's result sits at `(k, 0, j)` of the buffer. -/
theorem slot_idx (k : Fin 3) (j : Fin 256) :
    (slotR k).toLoadRect.idx (ix3 (0 : Fin 1) (0 : Fin 1) j) = ix3 k (0 : Fin 1) j := by
  funext a
  apply Fin.ext
  match a with
  | ⟨0, _⟩ => exact (show k.val + 1 * 0 = k.val by omega)
  | ⟨1, _⟩ => exact (show 0 + 1 * 0 = 0 by omega)
  | ⟨2, _⟩ => exact (show 0 + 1 * j.val = j.val by omega)

/-- A vector load of row `k` of the landed buffer reads the sums of the device `k + 1` places before. -/
theorem read_slot (c : Dev nD) (k : Fin 3) (j : Fin 256) :
    (cM : Memref sig .tc .vmem S3x1x256 .f32).view.readAt (Elt F) (slotR k).toLoadRect (landed m ρ c) (ix3 (0 : Fin 1) (0 : Fin 1) j)
      = lsum m ρ (src c k) (ix2 (0 : Fin 1) j) := by
  show landed m ρ c ((slotR k).toLoadRect.idx (ix3 (0 : Fin 1) (0 : Fin 1) j)) = _
  rw [slot_idx, landed_row]

/-- The elements that load touches are elements of row `k`. -/
theorem load_slot_sub (k : Fin 3) :
    (cM : Memref sig .tc .vmem S3x1x256 .f32).view.setOn (slotR k).toLoadRect.set ⊆ (slotM k).view.set := by
  rw [slot_set_eq]
  show Finset.map (Function.Embedding.refl _) (slotR k).set ⊆ (slotR k).set
  rw [Finset.map_refl]

/-! ## The buffer cut into its rows, and put together again -/

/-- Different rows share no element. -/
theorem slot_disjoint {j k : Fin 3} (h : j ≠ k) : Disjoint (slotM j).view.set (slotM k).view.set := by
  rw [Finset.disjoint_left]
  intro i hj hk
  have ej := (mem_slot_set j i).mp hj
  have ek := (mem_slot_set k i).mp hk
  exact h (Fin.ext (by omega))

/-- Every element lies in one of the three rows. -/
theorem slot_cover : (slotM 0).view.set ∪ ((slotM 1).view.set ∪ (slotM 2).view.set) = Finset.univ := by
  refine Finset.eq_univ_iff_forall.mpr fun i => ?_
  have h3 : (i 0).val < 3 := (i 0).isLt
  rcases (show (i 0).val = 0 ∨ (i 0).val = 1 ∨ (i 0).val = 2 by omega) with h | h | h
  · exact Finset.mem_union_left _ ((mem_slot_set 0 i).mpr h)
  · exact Finset.mem_union_right _ (Finset.mem_union_left _ ((mem_slot_set 1 i).mpr h))
  · exact Finset.mem_union_right _ (Finset.mem_union_right _ ((mem_slot_set 2 i).mpr h))

/-- Row 0 shares no element with rows 1 and 2 together. -/
theorem slot_disjoint_rest : Disjoint (slotM 0).view.set ((slotM 1).view.set ∪ (slotM 2).view.set) :=
  Finset.disjoint_union_right.mpr ⟨slot_disjoint (by decide), slot_disjoint (by decide)⟩

/-- The whole buffer at contents `f` is its three rows at `f`. -/
theorem comm_rows (c : Dev nD) (f : Buf (Elt F) ((c : Thread nD τ).loc cc0_scratch1)) :
    ((((c : Thread nD τ).loc cc0_scratch1) ↦{fullShare} f) : sProp 𝕄)
      ⊣⊢ iprop(slotAny c 0 f ∗ slotAny c 1 f ∗ slotAny c 2 f) := by
  unfold slotAny
  have h0 := pointsTo_union (nD := nD) (τ := τ) (sig := sig) (Ix := Unit) (Val := Elt F) (Name := ℕ) (U := UU) (Lvl := ℕ)
    (ℓ := (c : Thread nD τ).loc cc0_scratch1) (q := fullShare) (f := f) slot_disjoint_rest
  have h1 := pointsTo_union (nD := nD) (τ := τ) (sig := sig) (Ix := Unit) (Val := Elt F) (Name := ℕ) (U := UU) (Lvl := ℕ)
    (ℓ := (c : Thread nD τ).loc cc0_scratch1) (q := fullShare) (f := f) (slot_disjoint (j := 1) (k := 2) (by decide))
  rw [slot_cover] at h0
  exact ⟨h0.1.trans (sep_mono_r h1.1), (sep_mono_r h1.2).trans h0.2⟩

/-- The whole buffer at some contents is each row at some contents. -/
theorem comm_split (c : Dev nD) :
    iprop(∃ f : Buf (Elt F) ((c : Thread nD τ).loc cc0_scratch1), (((c : Thread nD τ).loc cc0_scratch1) ↦{fullShare} f))
      ⊢ (iprop((∃ f, slotAny c 0 f) ∗ (∃ f, slotAny c 1 f) ∗ (∃ f, slotAny c 2 f)) : sProp 𝕄) := by
  iintro ⟨%f, H⟩
  ihave H := (comm_rows c f).1 $$ H
  icases H with ⟨H0, H1, H2⟩
  isplitl [H0]
  · iexists f; iexact H0
  isplitl [H1]
  · iexists f; iexact H1
  · iexists f; iexact H2

/-- The three rows at the landed contents are the whole buffer at the landed contents. -/
theorem comm_join (c : Dev nD) :
    iprop(slotPts m ρ c 0 ∗ slotPts m ρ c 1 ∗ slotPts m ρ c 2)
      ⊢ (iprop(∃ f : Buf (Elt F) ((c : Thread nD τ).loc cc0_scratch1), (((c : Thread nD τ).loc cc0_scratch1) ↦{fullShare} f)) : sProp 𝕄) := by
  unfold slotPts
  iintro H
  ihave H := (comm_rows c (landed m ρ c)).2 $$ H
  iexists (landed m ρ c)
  iexact H

end Cert.Kernel.AR

end
-- ==== Proof.BitsBody.lean ====
/-
  One device's body, from the ghost state the launch deals it. The landing buffer is cut into its three rows first. Then
  the three signals (each hands a peer one row), the block loaded, the column sums stored and the barrier wait are stepped
  symbolically; the rows this device's copies will write come out of the barrier cell's round and the sums' points-to is
  cut into four shares; the three copies are applied by hand, each reading one share and landing in a peer's row at the
  contents `landed` names; the three receive waits, the loads, the result's store and the three send waits are stepped
  symbolically again; last the six own cells are closed and the shares and rows rejoined.
-/
import proofs.«900955_g7700000000000956_dist_mean_ax0_shard0_i_m512_n256_v7x_i4_bf16_1_alg».proof.Proof.Gen.Kernel
import proofs.«900955_g7700000000000956_dist_mean_ax0_shard0_i_m512_n256_v7x_i4_bf16_1_alg».proof.Proof.Gen.Kernel.Skeleton
import proofs.«900955_g7700000000000956_dist_mean_ax0_shard0_i_m512_n256_v7x_i4_bf16_1_alg».proof.Proof.Gen.Kernel.Launch
import proofs.«900955_g7700000000000956_dist_mean_ax0_shard0_i_m512_n256_v7x_i4_bf16_1_alg».proof.Proof.Gen.Kernel.Points
import Idealize.ShloMosaic.Lib.Pipeline.Launch
import Idealize.ShloMosaic.Lib.Pipeline.Kit
import Idealize.ShloMosaic.Lib.Tactic
import proofs.«900955_g7700000000000956_dist_mean_ax0_shard0_i_m512_n256_v7x_i4_bf16_1_alg».proof.Proof.BitsGhost
import proofs.«900955_g7700000000000956_dist_mean_ax0_shard0_i_m512_n256_v7x_i4_bf16_1_alg».proof.Proof.BitsBufs

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem pp02 (c : Dev nD) : peer (peer c 0) 2 = c := by revert c; decide
theorem pp11 (c : Dev nD) : peer (peer c 1) 1 = c := by revert c; decide
theorem pp20 (c : Dev nD) : peer (peer c 2) 0 = c := by revert c; decide
theorem rev_zero : rev 0 = 2 := by decide
theorem rev_one : rev 1 = 1 := by decide
theorem rev_two : rev 2 = 0 := by decide

section Body

omit [FloatOps F] in
/-- A whole buffer's points-to, through the memref that names the whole buffer. -/
theorem whole_pts (c : Dev nD) (b : Ref sig .tc) (q : PosShare TreeShare) (f : Buf (Elt F) ((c : Thread nD τ).loc b)) :
    ((((c : Thread nD τ).loc b) ↦{q} f) : sProp 𝕄)
      = ((Memref.whole b).view.loc (c : Thread nD τ) ↦[(Memref.whole b).view.set]{q} f) := by rw [View.set_whole]

variable (K : Dev nD × Fin 7 → ℕ)

abbrev rX : Rect S512x256 := Rect.unit (s := S512x256) ![0, 0] S512x256.size inb_S512x256_S512x256_0_0
abbrev rL : Rect S1x256 := Rect.unit (s := S1x256) ![0, 0] S1x256.size inb_S1x256_S1x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz _ f
omit [FloatOps F] in
theorem read_l (f : (cc0_scratch0 : Ref sig .tc).ty.Contents (Elt F)) : (lM : Memref sig .tc .vmem S1x256 .f32).view.readAt (Elt F) rL.toLoadRect f = f :=
  Memref.readAt_unit_zero (Elt F) cc0_scratch0 hz _ f
omit [FloatOps F] in
theorem write_l (f w : (cc0_scratch0 : Ref sig .tc).ty.Contents (Elt F)) :
    ((lM : Memref sig .tc .vmem S1x256 .f32).access rL : View sig .tc _ _ _).write (Elt F) f w Finset.univ = w :=
  Memref.write_access_unit_zero_univ (Elt F) cc0_scratch0 hz _ f w
omit [FloatOps F] in
theorem write_o (f w : (cc0_stg1_0 : Ref sig .tc).ty.Contents (Elt F)) :
    ((oM : Memref sig .tc .vmem S1x256 .f32).access rL : View sig .tc _ _ _).write (Elt F) f w Finset.univ = w :=
  Memref.write_access_unit_zero_univ (Elt F) cc0_stg1_0 hz _ f w

/-- Copy `k`: from a share of this device's sums into row `k` of `peer c k`, the transfer addressed to `n = peer c k`. -/
theorem wp_send_slot (c n : Dev nD) (k : Fin 3) (hn : n = peer c k)
    {hsc : (slotM k : Memref sig (Dev.tc n : Thread nD τ).2.kind .vmem S1x256 .f32).view.ref.isScScratch = false}
    {hsrc : (lM : Memref sig .tc .vmem S1x256 .f32).view.WordExact} {hdst : (slotM k : Memref sig .tc .vmem S1x256 .f32).view.WordExact}
    {hsem : DmaTarget.Typed .vmem (.dma (recvS k)) (.remote (Dev.tc n : Thread nD τ) (slotM k : Memref sig .tc .vmem S1x256 .f32) (.dma (sendS k)) hsc)}
    {α : Type} {Q : α → sProp 𝕄} {k' : PUnit → Prog (TpuEff nD τ sig (Elt F) Λ₀ .tc) α}
    (fn : Buf (Elt F) ((slotM k).view.loc (peer c k : Thread nD τ))) (O₁ O : CellTallies nD τ sig Unit)
    (hO : O₁ = O + tallyAt (recvCell (peer c k) k) () N) (W : Waits sig Unit) :
    iprop(cellInv ER (sched m ρ) (K (c, sendIx k)) (sendCell c k) ∗ cellInv ER (sched m ρ) (K (peer c k, recvIx k)) (recvCell (peer c k) k)
        ∗ locPts c (shareOf k) (lsum m ρ c) ∗ slotAny (peer c k) k fn
        ∗ owes (c : Thread nD τ) O₁ W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma lM (.remote (Dev.tc n : Thread nD τ) (slotM k) (.dma (sendS k)) hsc) (.dma (recvS k)) hsrc hdst hsem) k') Q) := by
  subst hn
  unfold locPts slotAny
  exact Rounds.wp_send_pointsTo 𝒱₀ ER (sched m ρ) (c : Thread nD τ) none (κ₁ := K (c, sendIx k)) (κ₂ := K (peer c k, recvIx k))
    (r₁ := 0) (r₂ := 0) (d₁ := 0) (d₂ := 0) (fd := fn)
    (by rw [duties_send]; exact Finset.mem_singleton_self _) (by rw [duties_recv]; exact Finset.mem_singleton_self _)
    () () N (slot_amount k _) (amount_send m ρ c k 0) (amount_recv m ρ (peer c k) k 0) O hO (W := W)
    (by rw [payload_send]; exact BI.Entails.refl _)
    (by rw [payload_recv]; exact land_slot m ρ c k fn)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 3) ∗ (bigSep Finset.univ fun k : Fin 3 => cred (tallyAt (recvCell c k) () N)) ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem fetch_0 (t : Fin cfg0.N) : (cfg0.win (0 : Fin 2)).fetch t = true := by rw [fin_N t]; rfl

abbrev W1 (W : Waits sig Unit) : Waits sig Unit := insert (SemLoc.reg barS, ()) W

theorem payload_bar_lit (c : Dev nD) (j d : Fin 3) (h : peer (peer c j) d = c) :
    (sched (F := F) m ρ).payload (barCell (peer c j)) 0 d
      = iprop((∃ f : Buf (Elt F) ((slotM d).view.loc (c : Thread nD τ)), ((slotM d).view.loc (c : Thread nD τ) ↦[(slotM d).view.set]{fullShare} f)) ∗ reached ER (recvCell c d) 0) := by
  rw [payload_bar]; unfold barPay slotAny; rw [h]
theorem payload_bar_02 (c : Dev nD) : (sched (F := F) m ρ).payload (barCell (peer c 0)) 0 2
      = iprop((∃ f : Buf (Elt F) ((slotM 2).view.loc (c : Thread nD τ)), ((slotM 2).view.loc (c : Thread nD τ) ↦[(slotM 2).view.set]{fullShare} f)) ∗ reached ER (recvCell c 2) 0) :=
  payload_bar_lit m ρ c 0 2 (pp02 c)
theorem payload_bar_11 (c : Dev nD) : (sched (F := F) m ρ).payload (barCell (peer c 1)) 0 1
      = iprop((∃ f : Buf (Elt F) ((slotM 1).view.loc (c : Thread nD τ)), ((slotM 1).view.loc (c : Thread nD τ) ↦[(slotM 1).view.set]{fullShare} f)) ∗ reached ER (recvCell c 1) 0) :=
  payload_bar_lit m ρ c 1 1 (pp11 c)
theorem payload_bar_20 (c : Dev nD) : (sched (F := F) m ρ).payload (barCell (peer c 2)) 0 0
      = iprop((∃ f : Buf (Elt F) ((slotM 0).view.loc (c : Thread nD τ)), ((slotM 0).view.loc (c : Thread nD τ) ↦[(slotM 0).view.set]{fullShare} f)) ∗ reached ER (recvCell c 0) 0) :=
  payload_bar_lit m ρ c 2 0 (pp20 c)
theorem payload_recv_lit (c : Dev nD) (k d : Fin 3) : (sched (F := F) m ρ).payload (recvCell c k) 0 d
    = ((slotM k).view.loc (c : Thread nD τ) ↦[(slotM k).view.set]{fullShare} landed m ρ c : sProp 𝕄) := by
  rw [payload_recv]; rfl

theorem payload_send_0 (c : Dev nD) (d : Fin 3) : (sched (F := F) m ρ).payload (sendCell c 0) 0 d
    = ((lM : Memref sig .tc .vmem S1x256 .f32).view.loc (c : Thread nD τ) ↦[(lM : Memref sig .tc .vmem S1x256 .f32).view.set]{fullShare.left.left} lsum m ρ c : sProp 𝕄) := by
  rw [payload_send]; rfl
theorem payload_send_1 (c : Dev nD) (d : Fin 3) : (sched (F := F) m ρ).payload (sendCell c 1) 0 d
    = ((lM : Memref sig .tc .vmem S1x256 .f32).view.loc (c : Thread nD τ) ↦[(lM : Memref sig .tc .vmem S1x256 .f32).view.set]{fullShare.left.right} lsum m ρ c : sProp 𝕄) := by
  rw [payload_send]; rfl
theorem payload_send_2 (c : Dev nD) (d : Fin 3) : (sched (F := F) m ρ).payload (sendCell c 2) 0 d
    = ((lM : Memref sig .tc .vmem S1x256 .f32).view.loc (c : Thread nD τ) ↦[(lM : Memref sig .tc .vmem S1x256 .f32).view.set]{fullShare.right.left} lsum m ρ c : sProp 𝕄) := by
  rw [payload_send]; rfl

/-- The barrier cell's round, duty by duty. -/
theorem bar_round (c : Dev nD) : bigSep Finset.univ (fun d => (sched (F := F) m ρ).payload (barCell c) 0 d) = iprop(barPay c 0 ∗ barPay c 1 ∗ barPay c 2) := by
  rw [bigSep_fin3, payload_bar, payload_bar, payload_bar]

/-- What the store of the column sums leaves in the device's own buffer. -/
theorem stored_l (c : Dev nD) (fl : (cc0_scratch0 : Ref sig .tc).ty.Contents (Elt F)) :
    (lM : Memref sig .tc .vmem S1x256 .f32).view.writes (Elt F) fl
        [⟨rL, k0_pay1 ((xM : Memref sig .tc .vmem S512x256 .f32).view.readAt (Elt F) rX.toLoadRect (xstg m ρ c))⟩] = lsum m ρ c := by
  rw [read_x]; exact (View.writes_singleton _ _ _ _).trans (write_l fl _)

/-- What the store of the result leaves in its staging buffer. -/
theorem stored_o (g w : (cc0_stg1_0 : Ref sig .tc).ty.Contents (Elt F)) :
    (oM : Memref sig .tc .vmem S1x256 .f32).view.writes (Elt F) g [⟨rL, w⟩] = w :=
  (View.writes_singleton _ _ _ _).trans (write_o g w)

attribute [local sl_rounds] payload_send_0 payload_send_1 payload_send_2 duties_bar duties_send duties_recv amount_bar amount_send amount_recv expect_bar expect_send expect_recv
  payload_bar_02 payload_bar_11 payload_bar_20 payload_recv_lit
attribute [local sl_canon] dev1_eq dev2_eq dev3_eq dev4_eq dev5_eq dev6_eq

set_option sl_exec.respelt true in
set_option maxHeartbeats 1600000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs scratch
  simp only [bigSep_fin3, rev_zero, rev_one, rev_two]
  iintro ⟨⟨⟨⟨⟨#HIB, ⟨#HIS0, #HIS1, #HIS2⟩, ⟨#HIR0, #HIR1, #HIR2⟩, ⟨#HIBP0, #HIBP1, #HIBP2⟩, #HIRP0, #HIRP1, #HIRP2⟩,
      HaB, ⟨HaS0, HaS1, HaS2⟩, ⟨HaR0, HaR1, HaR2⟩, ⟨#HrBP0, #HrBP1, #HrBP2⟩, ⟨#HrRP0, #HrRP1, #HrRP2⟩, ⟨#HrS0, #HrS1, #HrS2⟩, ⟨#HrR0, #HrR1, #HrR2⟩,
      ⟨HtB0, HtB1, HtB2⟩, ⟨HtR0, HtR1, HtR2⟩, HtS0, HtS1, HtS2⟩,
      HcB, ⟨HcR0, HcR1, HcR2⟩, #Hlev, ⟨%fl, Hloc⟩, Hcomm⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer, cut into its three rows
  ihave Hrows := (comm_split (F := F) c) $$ Hcomm
  icases Hrows with ⟨Hr0, Hr1, Hr2⟩
  icases Hr2 with ⟨%fs2, Hd2⟩
  icases Hr1 with ⟨%fs1, Hd1⟩
  icases Hr0 with ⟨%fs0, Hd0⟩

  unfold O₀ Oc1 Oc2 Oc3 Oc4 Oc5 slotAny
  have hmw := mayWait_bar (F := F) c
  ihave Hx := (Entails.of_eq (whole_pts c cc0_stg0_0 fullShare _)) $$ Hx
  ihave Hloc := (Entails.of_eq (whole_pts c cc0_scratch0 fullShare _)) $$ Hloc
  ihave Hout := (Entails.of_eq (whole_pts c cc0_stg1_0 fullShare _)) $$ Hout
  -- the three signals, the block loaded, the sums stored, the barrier wait
  sl_exec
  -- the rows this device's copies write come out of the barrier cell's round
  ihave Hp := (Entails.of_eq (bar_round m ρ c)) $$ HaB_pay1
  unfold barPay
  icases Hp with ⟨⟨⟨%fn0, Hn0⟩, #HrV0⟩, ⟨⟨%fn1, Hn1⟩, #HrV1⟩, ⟨%fn2, Hn2⟩, #HrV2⟩
  -- the sums' points-to in four shares: one per copy, one kept
  rw [stored_l m ρ c fl]
  ihave Hsh := (pointsTo_share (PosShare.mem_left_op_right fullShare)).1 $$ Hloc
  icases Hsh with ⟨HL, HR⟩
  ihave Hsh := (pointsTo_share (PosShare.mem_left_op_right fullShare.left)).1 $$ HL
  icases Hsh with ⟨HLL, HLR⟩
  ihave Hsh := (pointsTo_share (PosShare.mem_left_op_right fullShare.right)).1 $$ HR
  icases Hsh with ⟨HRL, HRR⟩
  -- copy 0: a share of the sums into row 0 of `peer c 0` (by hand: the landed contents are restated by `land_slot`)
  iapply (wp_send_slot m ρ K c _ 0 (dev4_eq c) fn0 (0 + tallyAt (recvCell (peer c 2) 2) () N + tallyAt (recvCell (peer c 1) 1) () N + tallyAt (recvCell (peer c 0) 0) () N) (0 + tallyAt (recvCell (peer c 2) 2) () N + tallyAt (recvCell (peer c 1) 1) () N) rfl (W1 W)) $$ [HLL Hn0 HO HtS0 HtR0]
  · isplitr; · iexact HIS0
    isplitr; · iexact HIRP0
    isplitl [HLL]; · unfold locPts; iexact HLL
    isplitl [Hn0]; · iexact Hn0
    isplitl [HO]; · iexact HO
    isplitl [HtS0]; · iexact HtS0
    isplitr; · iexact HrS0
    isplitl [HtR0]; · iexact HtR0
    iexact HrRP0
  iintro ⟨HcS0, HO⟩
  -- copy 1: a share of the sums into row 1 of `peer c 1` (by hand: the landed contents are restated by `land_slot`)
  iapply (wp_send_slot m ρ K c _ 1 (dev5_eq c) fn1 (0 + tallyAt (recvCell (peer c 2) 2) () N + tallyAt (recvCell (peer c 1) 1) () N) (0 + tallyAt (recvCell (peer c 2) 2) () N) rfl (W1 W)) $$ [HLR Hn1 HO HtS1 HtR1]
  · isplitr; · iexact HIS1
    isplitr; · iexact HIRP1
    isplitl [HLR]; · unfold locPts; iexact HLR
    isplitl [Hn1]; · iexact Hn1
    isplitl [HO]; · iexact HO
    isplitl [HtS1]; · iexact HtS1
    isplitr; · iexact HrS1
    isplitl [HtR1]; · iexact HtR1
    iexact HrRP1
  iintro ⟨HcS1, HO⟩
  -- copy 2: a share of the sums into row 2 of `peer c 2` (by hand: the landed contents are restated by `land_slot`)
  iapply (wp_send_slot m ρ K c _ 2 (dev6_eq c) fn2 (0 + tallyAt (recvCell (peer c 2) 2) () N) (0) rfl (W1 W)) $$ [HRL Hn2 HO HtS2 HtR2]
  · isplitr; · iexact HIS2
    isplitr; · iexact HIRP2
    isplitl [HRL]; · unfold locPts; iexact HRL
    isplitl [Hn2]; · iexact Hn2
    isplitl [HO]; · iexact HO
    isplitl [HtS2]; · iexact HtS2
    isplitr; · iexact HrS2
    isplitl [HtR2]; · iexact HtR2
    iexact HrRP2
  iintro ⟨HcS2, HO⟩
  -- the three receive waits, the loads, the result's store, the three send waits
  sl_exec
  -- the six own cells close: their counters at zero are the core's again
  imod (Rounds.cell_close ER (sched m ρ) (Set.mem_univ (K (c, sendIx 0))) (fun h => h) (R := 1) (duties_later m ρ (sendCell c 0))) $$ [HaS0] with HzS0
  · isplitr; · iexact HIS0
    iexact HaS0
  imod (Rounds.cell_close ER (sched m ρ) (Set.mem_univ (K (c, sendIx 1))) (fun h => h) (R := 1) (duties_later m ρ (sendCell c 1))) $$ [HaS1] with HzS1
  · isplitr; · iexact HIS1
    iexact HaS1
  imod (Rounds.cell_close ER (sched m ρ) (Set.mem_univ (K (c, sendIx 2))) (fun h => h) (R := 1) (duties_later m ρ (sendCell c 2))) $$ [HaS2] with HzS2
  · isplitr; · iexact HIS2
    iexact HaS2
  imod (Rounds.cell_close ER (sched m ρ) (Set.mem_univ (K (c, recvIx 0))) (fun h => h) (R := 1) (duties_later m ρ (recvCell c 0))) $$ [HaR0] with HzR0
  · isplitr; · iexact HIR0
    iexact HaR0
  imod (Rounds.cell_close ER (sched m ρ) (Set.mem_univ (K (c, recvIx 1))) (fun h => h) (R := 1) (duties_later m ρ (recvCell c 1))) $$ [HaR1] with HzR1
  · isplitr; · iexact HIR1
    iexact HaR1
  imod (Rounds.cell_close ER (sched m ρ) (Set.mem_univ (K (c, recvIx 2))) (fun h => h) (R := 1) (duties_later m ρ (recvCell c 2))) $$ [HaR2] with HzR2
  · isplitr; · iexact HIR2
    iexact HaR2
  -- the shares of the sums rejoined, the rows rejoined
  ihave HL := (pointsTo_share (PosShare.mem_left_op_right fullShare.left)).2 $$ [HaS0_pay1 HaS1_pay1]
  · isplitl [HaS0_pay1]; · iexact HaS0_pay1
    iexact HaS1_pay1
  ihave HR := (pointsTo_share (PosShare.mem_left_op_right fullShare.right)).2 $$ [HaS2_pay1 HRR]
  · isplitl [HaS2_pay1]; · iexact HaS2_pay1
    iexact HRR
  ihave Hloc := (pointsTo_share (PosShare.mem_left_op_right fullShare)).2 $$ [HL HR]
  · isplitl [HL]; · iexact HL
    iexact HR
  ihave Hloc := (Entails.of_eq (whole_pts c cc0_scratch0 fullShare _).symm) $$ Hloc
  ihave Hcomm := (comm_join m ρ c) $$ [HaR0_pay1 HaR1_pay1 HaR2_pay1]
  · unfold slotPts slotAny
    isplitl [HaR0_pay1]; · iexact HaR0_pay1
    isplitl [HaR1_pay1]; · iexact HaR1_pay1
    iexact HaR2_pay1
  -- what the result's store left
  rw [stored_o, read_l]
  ihave Hout := (Entails.of_eq (whole_pts c cc0_stg1_0 fullShare _).symm) $$ Hout
  ihave Hx := (Entails.of_eq (whole_pts c cc0_stg0_0 fullShare _).symm) $$ Hx
  rw [wp_ret]; imodintro
  iapply Hk
  unfold bodyPost Φ₁ scratch Dat.owesAt Pipeline.owesWithin
  rw [show (dats m ρ 0 c).owed t₀.succ = 0 from rfl]
  simp only [bigSep_fin3]
  isplitl [Hloc Hcomm HzS0 HzS1 HzS2 HzR0 HzR1 HzR2]
  · isplitl [Hloc Hcomm]
    · isplitl [Hloc]; · iexists _; iexact Hloc
      iexact Hcomm
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, HcB, HcR, Hlev⟩, Hscr⟩, Ho, Hx, Hout⟩
  iapply (sound_body m ρ K c fun _ => bodyPost m ρ c)
  unfold bodyPre
  isplitr []
  · isplitl [Hg HcB HcR Hlev Hscr]
    · isplitl [Hg]; · iexact Hg
      isplitl [HcB]; · iexact HcB
      isplitl [HcR]; · iexact HcR
      isplitl [Hlev]; · iexact Hlev
      iexact Hscr
    isplitl [Ho]; · iexact Ho
    isplitl [Hx] <;> iassumption
  · iintro H; iexact H

/-- info: 'Cert.Kernel.AR.body_obligation' depends on axioms: [propext, Classical.choice, Quot.sound] -/
#guard_msgs in #print axioms body_obligation

end Body

end Cert.Kernel.AR

end
-- ==== Proof.BitsLaunch.lean ====
/-
  The launch of the four-device kernel: the rounds' ghost state is funded for every device's seven cells and dealt —
  each barrier token to the device that pays it, each receive token to the device whose copy lands there —, every
  device's semaphores at zero become its cells' invariants under one update, the launch credit is sorted into each
  device's three barrier units and three receive credits, and the launch theorem gives the run of @main from each
  device's body obligation.
-/
import proofs.«900955_g7700000000000956_dist_mean_ax0_shard0_i_m512_n256_v7x_i4_bf16_1_alg».proof.Proof.BitsGhost
import Idealize.ShloMosaic.Lib.Pipeline.Launch
import Idealize.ShloMosaic.Lib.Pipeline.Kit
import Idealize.ShloMosaic.Lib.Tactic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: the layout facts, the cells and the duty tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- Every device's seven cells. -/
def protoCells : Finset (GSem nD τ sig) := Finset.univ.map ⟨kcell, kcell_injective⟩

/-- A device's own cells' duty tokens as minted: (device, kind, which) — kind 0 its barrier's duty `which`, kind 1 its
    send cell `which`'s one duty, kind 2 its receive cell `which`'s one duty. -/
abbrev tokOf (x : Dev nD × Fin 3 × Fin 3) : GSem nD τ sig × ℕ × Fin 3 := match x.2.1 with
  | 0 => (barCell x.1, 0, x.2.2) | 1 => (sendCell x.1 x.2.2, 0, 0) | 2 => (recvCell x.1 x.2.2, 0, 0)
theorem tokOf_injective : Function.Injective (tokOf : Dev nD × Fin 3 × Fin 3 → GSem nD τ sig × ℕ × Fin 3) := by
  rintro ⟨c, a, k⟩ ⟨c', a', k'⟩ h
  have h1 : c = c' := by
    have := congrArg (fun x : GSem nD τ sig × ℕ × Fin 3 => x.1.1.1) h
    fin_cases a <;> fin_cases a' <;> exact this
  subst h1
  have hs := congrArg (fun x : GSem nD τ sig × ℕ × Fin 3 => x.1.2) h
  have hd := congrArg (fun x : GSem nD τ sig × ℕ × Fin 3 => x.2.2) h
  fin_cases a <;> fin_cases a'
  · have : k = k' := hd
    subst this; rfl
  · exact absurd hs.symm (send_ne_bar k')
  · exact absurd hs.symm (recv_ne_bar k')
  · exact absurd hs (send_ne_bar k)
  · have : k = k' := send_inj k k' hs
    subst this; rfl
  · exact absurd hs (send_ne_recv k k')
  · exact absurd hs (recv_ne_bar k)
  · exact absurd hs.symm (send_ne_recv k' k)
  · have : k = k' := recv_inj k k' hs
    subst this; rfl
def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun d : Fin 3 => dutyTok ER (barCell c) 0 d)
    ∗ (bigSep Finset.univ fun k : Fin 3 => dutyTok ER (sendCell c k) 0 0)
    ∗ (bigSep Finset.univ fun k : Fin 3 => dutyTok ER (recvCell c k) 0 0))

/-- What the launch element deals device `c` (the theorem's `G`). -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_prod, bigSep_fin3]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every device's semaphores at zero become its cells' invariants -/

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records every device reads: every cell's invariant under its name, every cell at round 0. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem inv_send (K : Dev nD × Fin 7 → ℕ) (c : Dev nD) (k : Fin 3) :
    (bigSep Finset.univ fun ck : Dev nD × Fin 7 => (cellInv ER (sched m ρ) (K ck) (kcell ck) : sProp 𝕄))
      ⊢ cellInv ER (sched m ρ) (K (c, sendIx k)) (sendCell c k) := by
  have h := inv_at m ρ K (c, sendIx k); rw [kcell_send] at h; exact h
theorem inv_recv (K : Dev nD × Fin 7 → ℕ) (c : Dev nD) (k : Fin 3) :
    (bigSep Finset.univ fun ck : Dev nD × Fin 7 => (cellInv ER (sched m ρ) (K ck) (kcell ck) : sProp 𝕄))
      ⊢ cellInv ER (sched m ρ) (K (c, recvIx k)) (recvCell c k) := by
  have h := inv_at m ρ K (c, recvIx k); rw [kcell_recv] at h; exact h
theorem reached_send (c : Dev nD) (k : Fin 3) :
    (bigSep Finset.univ fun ck : Dev nD × Fin 7 => (reached ER (kcell ck) 0 : sProp 𝕄)) ⊢ reached ER (sendCell c k) 0 := by
  have h := reached_at (F := F) (c, sendIx k); rw [kcell_send] at h; exact h
theorem reached_recv (c : Dev nD) (k : Fin 3) :
    (bigSep Finset.univ fun ck : Dev nD × Fin 7 => (reached ER (kcell ck) 0 : sProp 𝕄)) ⊢ reached ER (recvCell c k) 0 := by
  have h := reached_at (F := F) (c, recvIx k); rw [kcell_recv] at h; exact h

/-- What stays with device `c`: the tokens of the duties IT pays, -/
def payToks (c : Dev nD) : sProp 𝕄 :=
  iprop((bigSep Finset.univ fun k : Fin 3 => dutyTok ER (barCell (peer c k)) 0 (rev k))
    ∗ (bigSep Finset.univ fun k : Fin 3 => dutyTok ER (recvCell (peer c k) k) 0 0)
    ∗ (bigSep Finset.univ fun k : Fin 3 => dutyTok ER (sendCell c k) 0 0))
/-- and its positions on its seven cells. -/
def linear (c : Dev nD) : sProp 𝕄 :=
  iprop((bigSep Finset.univ fun k : Fin 7 => atPos ER (kcell (c, k)) 0 ∅ 0) ∗ payToks c)

/-- A device's seven positions, sorted by kind. -/
theorem atPos_split (c : Dev nD) :
    (bigSep Finset.univ fun k : Fin 7 => (atPos ER (kcell (c, k)) 0 ∅ 0 : sProp 𝕄))
      ⊢ iprop(atPos ER (barCell c) 0 ∅ 0 ∗ (bigSep Finset.univ fun k : Fin 3 => atPos ER (sendCell c k) 0 ∅ 0)
          ∗ (bigSep Finset.univ fun k : Fin 3 => atPos ER (recvCell c k) 0 ∅ 0)) := by
  rw [bigSep_fin7, bigSep_fin3, bigSep_fin3]
  iintro ⟨H0, H1, H2, H3, H4, H5, H6⟩
  isplitl [H0]; · iexact H0
  isplitl [H1 H2 H3]
  · isplitl [H1]; · iexact H1
    isplitl [H2] <;> iassumption
  · isplitl [H4]; · iexact H4
    isplitl [H5] <;> iassumption

theorem ghost_intro (K : Dev nD × Fin 7 → ℕ) (c : Dev nD) : iprop(records m ρ K ∗ linear c) ⊢ G' m ρ c := by
  unfold records linear payToks G' ghost invs
  iintro ⟨⟨#HI, #HR⟩, Hat, HtB, HtV, HtS⟩
  ihave Hat' := (atPos_split (F := F) c) $$ Hat
  icases Hat' with ⟨HaB, HaS, HaV⟩
  iexists K
  isplitr
  · isplitr; · iapply (inv_at m ρ K (c, 0)); iexact HI
    isplitr; · iapply (bigSep_intro_persistent fun k _ => inv_send m ρ K c k); iexact HI
    isplitr; · iapply (bigSep_intro_persistent fun k _ => inv_recv m ρ K c k); iexact HI
    isplitr; · iapply (bigSep_intro_persistent fun k _ => inv_at m ρ K (peer c k, 0)); iexact HI
    iapply (bigSep_intro_persistent fun k _ => inv_recv m ρ K (peer c k) k); iexact HI
  isplitl [HaB]; · iexact HaB
  isplitl [HaS]; · iexact HaS
  isplitl [HaV]; · iexact HaV
  isplitr; · iapply (bigSep_intro_persistent fun k _ => reached_at (F := F) (peer c k, 0)); iexact HR
  isplitr; · iapply (bigSep_intro_persistent fun k _ => reached_recv (F := F) (peer c k) k); iexact HR
  isplitr; · iapply (bigSep_intro_persistent fun k _ => reached_send (F := F) c k); iexact HR
  isplitr; · iapply (bigSep_intro_persistent fun k _ => reached_recv (F := F) c k); iexact HR
  isplitl [HtB]; · iexact HtB
  isplitl [HtV]; · iexact HtV
  iexact HtS

/-- Device and offset to the device that offset reaches and the offset back: an involution. -/
def barE : Dev nD × Fin 3 ≃ Dev nD × Fin 3 :=
  ⟨fun p => (peer p.1 p.2, rev p.2), fun p => (peer p.1 p.2, rev p.2),
    fun p => Prod.ext (peer_peer_rev p.1 p.2) (rev_rev p.2), fun p => Prod.ext (peer_peer_rev p.1 p.2) (rev_rev p.2)⟩
/-- Device and copy number to the device that copy lands on, same number. -/
def recvE : Dev nD × Fin 3 ≃ Dev nD × Fin 3 :=
  ⟨fun p => (peer p.1 p.2, p.2), fun p => (src p.1 p.2, p.2), fun p => Prod.ext (src_peer p.1 p.2) rfl, fun p => Prod.ext (peer_src p.1 p.2) rfl⟩

/-- The tokens dealt over the mesh: the barrier token `(barCell s, d)` to the device `peer s d`, which pays it as its duty
    `rev d` there; the receive token `(recvCell s k)` to the device `src s k`; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun p : Dev nD × Fin 3 => (dutyTok ER (barCell p.1) 0 p.2 : sProp 𝕄)),
    bigSep_univ_equiv barE (fun p : Dev nD × Fin 3 => (dutyTok ER (barCell p.1) 0 p.2 : sProp 𝕄)),
    bigSep_univ_prod (fun p : Dev nD × Fin 3 => (dutyTok ER (barCell (barE p).1) 0 (barE p).2 : sProp 𝕄)),
    ← bigSep_univ_prod (fun p : Dev nD × Fin 3 => (dutyTok ER (recvCell p.1 p.2) 0 0 : sProp 𝕄)),
    bigSep_univ_equiv recvE (fun p : Dev nD × Fin 3 => (dutyTok ER (recvCell p.1 p.2) 0 0 : sProp 𝕄)),
    bigSep_univ_prod (fun p : Dev nD × Fin 3 => (dutyTok ER (recvCell (recvE p).1 (recvE p).2) 0 0 : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 7 => (atPos ER (kcell (c, k)) 0 ∅ 0 : sProp 𝕄)) payToks).symm)
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Three units on one cell are the cell's three. -/
theorem cred_three (g : GSem nD τ sig) :
    iprop(cred (tallyAt g () 1) ∗ cred (tallyAt g () 1) ∗ cred (tallyAt g () 1)) ⊢ (cred (tallyAt g () 3) : sProp 𝕄) := by
  have h : (tallyAt g () 3 : CellTallies nD τ sig Unit) = tallyAt g () 1 + (tallyAt g () 1 + tallyAt g () 1) := by
    rw [tallyAt_add, tallyAt_add]
  rw [h]
  exact (sep_mono_right (cred_add _ _).2).trans (cred_add _ _).2

/-- What the launch deals device `c` for the units the others owe its cells: every device owes its three peers' barrier
    cells a unit each and its `k`-th peer's receive cell `k` one transfer's credit, and `d ↦ peer d k` is a bijection of
    the devices; so `c` gets three units on its barrier cell and one transfer's credit on each receive cell. -/
theorem creds (c : Dev nD) :
    (Pipeline.launchCred O₀ c : sProp 𝕄)
      ⊢ iprop(cred (tallyAt (barCell c) () 3) ∗ bigSep Finset.univ fun k : Fin 3 => cred (tallyAt (recvCell c k) () N)) := by
  have e : (Pipeline.launchCred O₀ c : sProp 𝕄)
      = Pipeline.launchCred (fun d => (((((((0 : CellTallies nD τ sig Unit) + tallyAt (recvCell (peer d 2) 2) () N)
          + tallyAt (recvCell (peer d 1) 1) () N) + tallyAt (recvCell (peer d 0) 0) () N) + tallyAt (barCell (peer d 2)) () 1)
          + tallyAt (barCell (peer d 1)) () 1) + tallyAt (barCell (peer d 0)) () 1)) c := rfl
  rw [e, Pipeline.launchCred_add, Pipeline.launchCred_add, Pipeline.launchCred_add, Pipeline.launchCred_add, Pipeline.launchCred_add,
    Pipeline.launchCred_add, bigSep_fin3]
  iintro ⟨⟨⟨⟨⟨⟨-, Hr2⟩, Hr1⟩, Hr0⟩, Hb2⟩, Hb1⟩, Hb0⟩
  isplitl [Hb0 Hb1 Hb2]
  · iapply (cred_three (F := F) (barCell c))
    isplitl [Hb0]
    · iapply (Pipeline.launchCred_tallyAt (.reg barS) (fun d => peer d 0) (fun d => src d 0) (fun d => peer_src d 0) (fun d => src_peer d 0) () 1 c); iexact Hb0
    isplitl [Hb1]
    · iapply (Pipeline.launchCred_tallyAt (.reg barS) (fun d => peer d 1) (fun d => src d 1) (fun d => peer_src d 1) (fun d => src_peer d 1) () 1 c); iexact Hb1
    · iapply (Pipeline.launchCred_tallyAt (.reg barS) (fun d => peer d 2) (fun d => src d 2) (fun d => peer_src d 2) (fun d => src_peer d 2) () 1 c); iexact Hb2
  isplitl [Hr0]
  · iapply (Pipeline.launchCred_tallyAt (.dma (recvS 0)) (fun d => peer d 0) (fun d => src d 0) (fun d => peer_src d 0) (fun d => src_peer d 0) () N c); iexact Hr0
  isplitl [Hr1]
  · iapply (Pipeline.launchCred_tallyAt (.dma (recvS 1)) (fun d => peer d 1) (fun d => src d 1) (fun d => peer_src d 1) (fun d => src_peer d 1) () N c); iexact Hr1
  · iapply (Pipeline.launchCred_tallyAt (.dma (recvS 2)) (fun d => peer d 2) (fun d => src d 2) (fun d => peer_src d 2) (fun d => src_peer d 2) () N c); iexact Hr2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scratch
  rw [bigSep_fin3, bigSep_fin3]
  iintro ⟨Hr, ⟨S0, S1, S2⟩, ⟨V0, V1, V2⟩⟩
  isplitr; · iempintro
  isplitr [Hr]
  · isplitl [S0]; · iexact S0
    isplitl [S1]; · iexact S1
    isplitl [S2]; · iexact S2
    isplitl [V0]; · iexact V0
    isplitl [V1] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

/-- Each window's array after the run, as the pipeline's proof data compute it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given each device's
    body obligation: every weakly fair execution of @main — the four kernels handshaking on the runtime's barrier
    semaphore, then each sending its row of column sums to the three others — terminates, and every final state has each
    window's array of each device at the contents the proof data compute. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AR.run_main' depends on axioms: [propext, Classical.choice, Quot.sound] -/
#guard_msgs in #print axioms run_main

/-- The `x` block after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds what the body left in the result's staging buffer: the one grid point writes
    window 1 back, and its block at zero offsets is the whole `[1, 256]` array. -/
theorem finalA_out (c : Dev nD) : finalA m ρ c (1 : Fin 2) = outAt m ρ c := by
  show (dats m ρ 0 c).arrAt 1 (t₀.val + 1) = _
  rw [Dat.arrAt_succ, flush0_1 t₀, if_pos rfl]
  show ((cfg0.win 1).blk t₀).view.write (Elt F) _ (outAt m ρ c) Finset.univ = outAt m ρ c
  have hz' : (fun a => win0_1.index t₀ a * main_v1.ty.shape.size a) = fun _ => 0 := funext fun a => by fin_cases a <;> decide
  exact Memref.write_access_unit_zero_univ (Elt F) main_v1 hz' (fun a => by rw [congrFun hz' a]; simp) _ _

end Cert.Kernel.AR

end
-- ==== Proof.lean ====
/-
  Four devices each hold 512 rows of a [2048, 256] array. Every device sums the columns of its block, hands that row of
  sums to the three other devices after a handshake on the barrier semaphore, adds its own row and the three rows it
  received, and scales the total by 1/2048; the reference, on one device, takes the mean over all 2048 rows. The claim
  is five conjuncts: the word-level kernel, the kernel read over the extended reals and the reference each run and leave
  their arguments as they were; the idealization rewrote no operation; and over the extended reals, with each device's
  block its part of the reference's array, every device's result is the reference's.
-/
import proofs.«900955_g7700000000000956_dist_mean_ax0_shard0_i_m512_n256_v7x_i4_bf16_1_alg».proof.Defs
import proofs.«900955_g7700000000000956_dist_mean_ax0_shard0_i_m512_n256_v7x_i4_bf16_1_alg».proof.Proof.Gen.Kernel
import proofs.«900955_g7700000000000956_dist_mean_ax0_shard0_i_m512_n256_v7x_i4_bf16_1_alg».proof.Proof.Gen.Kernel.Skeleton
import proofs.«900955_g7700000000000956_dist_mean_ax0_shard0_i_m512_n256_v7x_i4_bf16_1_alg».proof.Proof.Gen.Kernel.Launch
import proofs.«900955_g7700000000000956_dist_mean_ax0_shard0_i_m512_n256_v7x_i4_bf16_1_alg».proof.Proof.Gen.Kernel.Points
import proofs.«900955_g7700000000000956_dist_mean_ax0_shard0_i_m512_n256_v7x_i4_bf16_1_alg».proof.Proof.Gen.Kernel.Frame
import proofs.«900955_g7700000000000956_dist_mean_ax0_shard0_i_m512_n256_v7x_i4_bf16_1_alg».proof.Proof.Gen.KernelIdeal
import proofs.«900955_g7700000000000956_dist_mean_ax0_shard0_i_m512_n256_v7x_i4_bf16_1_alg».proof.Proof.Gen.KernelIdeal.Skeleton
import proofs.«900955_g7700000000000956_dist_mean_ax0_shard0_i_m512_n256_v7x_i4_bf16_1_alg».proof.Proof.Gen.KernelIdeal.Launch
import proofs.«900955_g7700000000000956_dist_mean_ax0_shard0_i_m512_n256_v7x_i4_bf16_1_alg».proof.Proof.Gen.KernelIdeal.Points
import proofs.«900955_g7700000000000956_dist_mean_ax0_shard0_i_m512_n256_v7x_i4_bf16_1_alg».proof.Proof.Gen.KernelIdeal.Frame
import proofs.«900955_g7700000000000956_dist_mean_ax0_shard0_i_m512_n256_v7x_i4_bf16_1_alg».proof.Proof.Gen.ReferenceIdeal
import proofs.«900955_g7700000000000956_dist_mean_ax0_shard0_i_m512_n256_v7x_i4_bf16_1_alg».proof.Proof.Gen.Pre_finite_inputs_Kernel
import proofs.«900955_g7700000000000956_dist_mean_ax0_shard0_i_m512_n256_v7x_i4_bf16_1_alg».proof.Proof.Gen.Pre_finite_inputs_ReferenceIdeal
import proofs.«900955_g7700000000000956_dist_mean_ax0_shard0_i_m512_n256_v7x_i4_bf16_1_alg».proof.Proof.Body
import proofs.«900955_g7700000000000956_dist_mean_ax0_shard0_i_m512_n256_v7x_i4_bf16_1_alg».proof.Proof.Launch
import proofs.«900955_g7700000000000956_dist_mean_ax0_shard0_i_m512_n256_v7x_i4_bf16_1_alg».proof.Proof.ValueJoin
import proofs.«900955_g7700000000000956_dist_mean_ax0_shard0_i_m512_n256_v7x_i4_bf16_1_alg».proof.Proof.BitsBody
import proofs.«900955_g7700000000000956_dist_mean_ax0_shard0_i_m512_n256_v7x_i4_bf16_1_alg».proof.Proof.BitsLaunch
import proofs.«900955_g7700000000000956_dist_mean_ax0_shard0_i_m512_n256_v7x_i4_bf16_1_alg».proof.Proof.Gen.ReferenceIdeal.Run
import proofs.«900955_g7700000000000956_dist_mean_ax0_shard0_i_m512_n256_v7x_i4_bf16_1_alg».proof.Proof.Gen.ReferenceIdeal.Read
import Idealize.ShloMosaic.Adequacy
import Idealize.ShloMosaic.Init

noncomputable section

/-! ## The claims -/

namespace Cert.Proof.Claims

open Idealize.ShloMosaic Idealize.SL.Sem

/-- The word-level kernel runs on the four devices and leaves each device's block of `x` as it was: the launch's run,
    read at the argument's window. -/
theorem frame_kernel : Cert.frame_Kernel := fun m ρ _ =>
  (θ_run (Cert.Kernel.defs (F := Bits)) _ _).mono (fun r h c => (h c (0 : Fin 2)).trans (Cert.Kernel.AR.finalA_x m ρ c))
    (Cert.Kernel.AR.run_main m ρ (Cert.Kernel.AR.body_obligation m ρ))

/-- The same of the kernel read over the extended reals. -/
theorem frame_kernelIdeal : Cert.frame_KernelIdeal := fun m ρ _ =>
  (θ_run (Cert.KernelIdeal.defs (F := Ideal)) _ _).mono (fun r h c => (h c (0 : Fin 2)).trans (Cert.KernelIdeal.AR.finalA_x m ρ c))
    (Cert.KernelIdeal.AR.run_main m ρ (Cert.KernelIdeal.AR.body_obligation m ρ))

/-- The reference runs on its one device and leaves the whole array as it was. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, with device `c` holding block `c` of the reference's `[2048, 256]` array: every device's
    result ends at its own column sums plus the three rows it received, scaled by 1/2048, which is the reference's mean
    over all 2048 rows; both runs leave their arguments as they were. -/
theorem algebraic : Cert.algebraic_KernelIdeal_ReferenceIdeal := by
  intro m ρ m' ρ' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, ?_⟩)
      (Cert.KernelIdeal.AR.run_main m ρ (Cert.KernelIdeal.AR.body_obligation m ρ))
    · exact ((h c (1 : Fin 2)).trans (Cert.KernelIdeal.AR.finalA_out m ρ c)).trans
        (Cert.KernelIdeal.AR.outAt_eq_ref m ρ _ hagree c)
    · exact (h c (0 : Fin 2)).trans (Cert.KernelIdeal.AR.finalA_x m ρ c)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' ρ')

end Cert.Proof.Claims

namespace Cert.Proof

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_kernel, Claims.frame_kernelIdeal, Claims.frame_reference, Claims.preserves, Claims.algebraic⟩

end Cert.Proof

end
